-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x1 : Shape := ⟨2, ![800000, 1]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S32 .f32) (main_arg9 : FVec F S32x3 .f32) (main_arg10 : FVec F S3 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x3 .f32 := Host.absf main_arg9
  let main_cst_14 : FVec F S_ .f32 := constant S_ .f32 0x7F800000#32
  let main_v40 : FVec F S32x3 .f32 := broadcastInDim S32x3 ![] bcast_S_S32x3 main_cst_14
  let main_v41 : IVec S32x3 1 := cmpf .olt main_v39 main_v40
  let main_c_15 : IVec S_ 1 := constantI S_ 1 1#1
  let main_v42 : IVec S_ 1 := (fun x v => Host.reduce IntOp.andi x v reducesTo_S32x3_S_d0_1 h_S_) main_v41 main_c_15
  let main_v43 : IVec S_ 1 := andi main_v38 main_v42
  let main_v44 : FVec F S3 .f32 := Host.absf main_arg10
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x32 .f32) (main_arg8 : FVec F S32 .f32) (main_arg9 : FVec F S32x3 .f32) (main_arg10 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000x1 .f32) (main_arg3 : FVec F S128x64 .f32) (main_arg4 : FVec F S64 .f32) (main_arg5 : FVec F S64x64 .f32) (main_arg6 : FVec F S64 .f32) (main_arg7 : FVec F S64x32 .f32) (main_arg8 : FVec F S32 .f32) (main_arg9 : FVec F S32x3 .f32) (main_arg10 : FVec F S3 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000x1 : Shape := ⟨2, ![800000, 1]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S800000 : Shape := ⟨1, ![800000]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S2000x128 : Shape := ⟨2, ![2000, 128]⟩
abbrev S2000x64 : Shape := ⟨2, ![2000, 64]⟩
abbrev S850000x64 : Shape := ⟨2, ![850000, 64]⟩
abbrev S1x64 : Shape := ⟨2, ![1, 64]⟩
abbrev S1x32 : Shape := ⟨2, ![1, 32]⟩
abbrev S50000x32 : Shape := ⟨2, ![50000, 32]⟩
abbrev S2000x32 : Shape := ⟨2, ![2000, 32]⟩
abbrev S1x3 : Shape := ⟨2, ![1, 3]⟩
abbrev S50000x3 : Shape := ⟨2, ![50000, 3]⟩
abbrev S2000x3 : Shape := ⟨2, ![2000, 3]⟩

abbrev nBuf : Space → Nat
  | .hbm => 104
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x3, .f32⟩
  | .hbm, ⟨10, _⟩ => ⟨S3, .f32⟩
  | .hbm, ⟨11, _⟩ => ⟨S800000, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S50000, .i32⟩
  | .hbm, ⟨17, _⟩ => ⟨S850000, .i32⟩
  | .hbm, ⟨18, _⟩ => ⟨S850000, .i32⟩
  | .hbm, ⟨19, _⟩ => ⟨S_, .f32⟩
  | .hbm, ⟨20, _⟩ => ⟨S50000, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S50000x128, .bf16⟩
  | .hbm, ⟨55, _⟩ => ⟨S128x64, .bf16⟩
  | .hbm, ⟨56, _⟩ => ⟨S50000x64, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x64, .f32⟩
  | .hbm, ⟨66, _⟩ => ⟨S850000x1, .f32⟩
  | .hbm, ⟨67, _⟩ => ⟨S850000x64, .f32⟩
  | .hbm, ⟨68, _⟩ => ⟨S850000x64, .f32⟩
  | .hbm, ⟨69, _⟩ => ⟨S_, .f32⟩
  | .hbm, ⟨70, _⟩ => ⟨S50000x64, .f32⟩
  | .hbm, ⟨71, _⟩ => ⟨S850000x1, .i32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .bf16⟩
  | .hbm, ⟨76, _⟩ => ⟨S64x64, .bf16⟩
  | .hbm, ⟨77, _⟩ => ⟨S50000x64, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000x64, .f32⟩
  | .hbm, ⟨87, _⟩ => ⟨S850000x1, .f32⟩
  | .hbm, ⟨88, _⟩ => ⟨S850000x64, .f32⟩
  | .hbm, ⟨89, _⟩ => ⟨S850000x64, .f32⟩
  | .hbm, ⟨90, _⟩ => ⟨S_, .f32⟩
  | .hbm, ⟨91, _⟩ => ⟨S50000x64, .f32⟩
  | .hbm, ⟨92, _⟩ => ⟨S850000x1, .i32⟩
  | .hbm, ⟨93, _⟩ => ⟨S50000x64, .f32⟩
  | .hbm, ⟨94, _⟩ => ⟨S1x64, .f32⟩
  | .hbm, ⟨95, _⟩ => ⟨S50000x64, .f32⟩
  | .hbm, ⟨96, _⟩ => ⟨S50000x64, .bf16⟩
  | .hbm, ⟨97, _⟩ => ⟨S64x32, .bf16⟩
  | .hbm, ⟨98, _⟩ => ⟨S1x32, .f32⟩
  | .hbm, ⟨99, _⟩ => ⟨S50000x32, .f32⟩
  | .hbm, ⟨100, _⟩ => ⟨S50000x32, .bf16⟩
  | .hbm, ⟨101, _⟩ => ⟨S32x3, .bf16⟩
  | .hbm, ⟨102, _⟩ => ⟨S1x3, .f32⟩
  | .hbm, ⟨103, _⟩ => ⟨S50000x3, .f32⟩
  | .local _ .vmem, ⟨0, _⟩ => ⟨S2000x128, .bf16⟩
  | .local _ .vmem, ⟨1, _⟩ => ⟨S2000x128, .bf16⟩
  | .local _ .vmem, ⟨2, _⟩ => ⟨S128x64, .bf16⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .bf16⟩
  | .local _ .vmem, ⟨11, _⟩ => ⟨S2000x64, .bf16⟩
  | .local _ .vmem, ⟨12, _⟩ => ⟨S64x64, .bf16⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S2000x64, .bf16⟩
  | .local _ .vmem, ⟨21, _⟩ => ⟨S2000x64, .bf16⟩
  | .local _ .vmem, ⟨22, _⟩ => ⟨S64x32, .bf16⟩
  | .local _ .vmem, ⟨23, _⟩ => ⟨S1x32, .f32⟩
  | .local _ .vmem, ⟨24, _⟩ => ⟨S2000x32, .f32⟩
  | .local _ .vmem, ⟨25, _⟩ => ⟨S2000x32, .f32⟩
  | .local _ .vmem, ⟨26, _⟩ => ⟨S2000x32, .bf16⟩
  | .local _ .vmem, ⟨27, _⟩ => ⟨S2000x32, .bf16⟩
  | .local _ .vmem, ⟨28, _⟩ => ⟨S32x3, .bf16⟩
  | .local _ .vmem, ⟨29, _⟩ => ⟨S1x3, .f32⟩
  | .local _ .vmem, ⟨30, _⟩ => ⟨S2000x3, .f32⟩
  | .local _ .vmem, ⟨31, _⟩ => ⟨S2000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_9 : Ref sig .tc := ⟨.hbm, 78, rfl⟩
abbrev main_v54 : Ref sig .tc := ⟨.hbm, 79, rfl⟩
abbrev main_v55 : Ref sig .tc := ⟨.hbm, 80, rfl⟩
abbrev main_c_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem3_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S32x3 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x3 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x3 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  shapeCasts_S800000x1_S800000 : S800000x1.ShapeCasts S800000
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S32_S1x32 : S32.ShapeCasts S1x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  shapeCasts_S3_S1x3 : S3.ShapeCasts S1x3
  shapeCasts_S2000x32_S2000x32 : S2000x32.ShapeCasts S2000x32
  inb_S32x3_S32x3_0_0 : ∀ a, (![0, 0] : Fin 2 → Nat) a + S32x3.size a ≤ S32x3.size a
  h_S32x3 : 0 < S32x3.numel
  shapeCasts_S32x3_S32x3 : S32x3.ShapeCasts S32x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  dot_S2000x32_S32x3_S2000x3_1_0_0_1_n_n_wf : DotDims.WF S2000x32 S32x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .bf16 = 32 ∨ (Rect.block (s := S50000x64) S2000x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .bf16 = 32 ∨ (Rect.block (s := S64x64) S64x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .bf16 = 32 ∨ (Rect.block (s := S50000x64) S2000x64.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .bf16 = 32 ∨ (Rect.block (s := S64x32) S64x32.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x32.size a ≤ S50000x32.size a
  hwx4_3 : ∀ i : grid4.Coords, EltTy.bits .f32 = 32 ∨ (Rect.block (s := S50000x32) S2000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S50000x32.size a
  hwx5_0 : ∀ i : grid5.Coords, EltTy.bits .bf16 = 32 ∨ (Rect.block (s := S50000x32) S2000x32.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S32x3.size a ≤ S32x3.size a
  hwx5_1 : ∀ i : grid5.Coords, EltTy.bits .bf16 = 32 ∨ (Rect.block (s := S32x3) S32x3.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x3.size a ≤ S1x3.size a
  hwx5_2 : ∀ i : grid5.Coords, EltTy.bits .f32 = 32 ∨ (Rect.block (s := S1x3) S1x3.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x3.size a ≤ S50000x3.size a
  hwx5_3 : ∀ i : grid5.Coords, EltTy.bits .f32 = 32 ∨ (Rect.block (s := S50000x3) S2000x3.size (cc5_transform_3 i) (hinb5_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x3_S2000x3_1_0_0_1_n_n : DotDims S2000x32 S32x3 S2000x3 where
  lhsContracting := [1]
  rhsContracting := [0]
  lhsNonContracting := [0]
  rhsNonContracting := [1]
  lhsBatch := []
  rhsBatch := []
  wf := dot_S2000x32_S32x3_S2000x3_1_0_0_1_n_n_wf

abbrev win0_0 : Pipeline.Window sig grid0 :=
  Pipeline.Window.ofSpec (Memref.whole main_v33) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v69) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S2000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v73) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S32x3.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S1x3.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v76) S2000x3.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x1 : Shape := ⟨2, ![800000, 1]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S800000 : Shape := ⟨1, ![800000]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x32 : Shape := ⟨2, ![50000, 32]⟩
abbrev S1x32 : Shape := ⟨2, ![1, 32]⟩
abbrev S50000x3 : Shape := ⟨2, ![50000, 3]⟩
abbrev S1x3 : Shape := ⟨2, ![1, 3]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x3, .f32⟩
  | .hbm, ⟨10, _⟩ => ⟨S3, .f32⟩
  | .hbm, ⟨11, _⟩ => ⟨S800000, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S50000, .i32⟩
  | .hbm, ⟨17, _⟩ => ⟨S850000, .i32⟩
  | .hbm, ⟨18, _⟩ => ⟨S850000, .i32⟩
  | .hbm, ⟨19, _⟩ => ⟨S_, .f32⟩
  | .hbm, ⟨20, _⟩ => ⟨S50000, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S50000x64, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x64, .f32⟩
  | .hbm, ⟨64, _⟩ => ⟨S850000x1, .f32⟩
  | .hbm, ⟨65, _⟩ => ⟨S850000x64, .f32⟩
  | .hbm, ⟨66, _⟩ => ⟨S850000x64, .f32⟩
  | .hbm, ⟨67, _⟩ => ⟨S_, .f32⟩
  | .hbm, ⟨68, _⟩ => ⟨S50000x64, .f32⟩
  | .hbm, ⟨69, _⟩ => ⟨S850000x1, .i32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000x64, .f32⟩
  | .hbm, ⟨87, _⟩ => ⟨S850000x1, .f32⟩
  | .hbm, ⟨88, _⟩ => ⟨S850000x64, .f32⟩
  | .hbm, ⟨89, _⟩ => ⟨S850000x64, .f32⟩
  | .hbm, ⟨90, _⟩ => ⟨S_, .f32⟩
  | .hbm, ⟨91, _⟩ => ⟨S50000x64, .f32⟩
  | .hbm, ⟨92, _⟩ => ⟨S850000x1, .i32⟩
  | .hbm, ⟨93, _⟩ => ⟨S50000x64, .f32⟩
  | .hbm, ⟨94, _⟩ => ⟨S1x64, .f32⟩
  | .hbm, ⟨95, _⟩ => ⟨S50000x64, .f32⟩
  | .hbm, ⟨96, _⟩ => ⟨S50000x64, .f32⟩
  | .hbm, ⟨97, _⟩ => ⟨S_, .f32⟩
  | .hbm, ⟨98, _⟩ => ⟨S50000x64, .f32⟩
  | .hbm, ⟨99, _⟩ => ⟨S50000x64, .f32⟩
  | .hbm, ⟨100, _⟩ => ⟨S50000x32, .f32⟩
  | .hbm, ⟨101, _⟩ => ⟨S1x32, .f32⟩
  | .hbm, ⟨102, _⟩ => ⟨S50000x32, .f32⟩
  | .hbm, ⟨103, _⟩ => ⟨S50000x32, .f32⟩
  | .hbm, ⟨104, _⟩ => ⟨S_, .f32⟩
  | .hbm, ⟨105, _⟩ => ⟨S50000x32, .f32⟩
  | .hbm, ⟨106, _⟩ => ⟨S50000x32, .f32⟩
  | .hbm, ⟨107, _⟩ => ⟨S50000x3, .f32⟩
  | .hbm, ⟨108, _⟩ => ⟨S1x3, .f32⟩
  | .hbm, ⟨109, _⟩ => ⟨S50000x3, .f32⟩
  | .hbm, ⟨110, _⟩ => ⟨S50000x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call1_cst : Ref sig .tc := ⟨.hbm, 74, rfl⟩
abbrev main_call1_v0 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_call2_cst : Ref sig .tc := ⟨.hbm, 97, rfl⟩
abbrev main_call2_v0 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_call3_cst : Ref sig .tc := ⟨.hbm, 104, rfl⟩
abbrev main_call3_v0 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]

class Facts₀ : Prop where
  shapeCasts_S800000x1_S800000 : S800000x1.ShapeCasts S800000
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []
  dot_S50000x32_S32x3_S50000x3_1_0_0_1_n_n_wf : DotDims.WF S50000x32 S32x3 S50000x3 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x3_S50000x3_1_0_0_1_n_n : DotDims S50000x32 S32x3 S50000x3 where
  lhsContracting := [1]
  rhsContracting := [0]
  lhsNonContracting := [0]
  rhsNonContracting := [1]
  lhsBatch := []
  rhsBatch := []
  wf := dot_S50000x32_S32x3_S50000x3_1_0_0_1_n_n_wf

class Facts : Prop extends Facts₀ where

variable [Facts]
-- ==== Proof.LibRowOps.lean ====
/-
  Two-axis operations read at a row and a column.

  General facts about arrays with two axes, written over indices `ix2 r c` with literal-typed coordinates, at the
  extended reals where arithmetic is involved:
  * a plain matrix product `[M, K] × [K, N]` into a zero accumulator is, at `(r, c)`, the sum over `k` of the left
    operand at `(r, k)` times the right at `(k, c)`;
  * a sum over the second axis of an `[R, n]` array is, at `r`, the sum over `k` of the array at `(r, k)`;
  * a one-axis array `[a]` cast to a column `[a, 1]` reads its entry `r`; a column `[a, 1]` broadcast to `[a, b]`
    reads the column's entry in the same row;
  * two arrays joined along the second axis read the first where the column falls inside it and the second, the first's
    width less, elsewhere.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx
open scoped BigOperators

/-! ## A plain matrix product -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (M K N : ℕ) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (M K N : ℕ) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index of a plain product, re-indexed by the one contracted coordinate. -/
theorem plain_sum (M K N : ℕ) (a : (⟨2, ![M, K]⟩ : Shape).Idx → EReal) (b : (⟨2, ![K, N]⟩ : Shape).Idx → EReal)
    (r : Fin M) (c : Fin N) :
    ∑ k : (DotDims.plain M K N).contr.Idx,
        a ((DotDims.plain M K N).lhsIdx (ix2 r c) k) * b ((DotDims.plain M K N).rhsIdx (ix2 r c) k)
      = ∑ k : Fin K, a (ix2 r k) * b (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun ax => Fin.ext (by
      match ax with
      | ⟨0, _⟩ => exact plain_lhs0 M K N _ _
      | ⟨1, _⟩ => exact (plain_lhs1 M K N _ _).trans hk)
  have er : (DotDims.plain M K N).rhsIdx (ix2 r c) ((contrEquiv1 (DotDims.plain M K N) K rfl rfl).symm k) = ix2 k c :=
    funext fun ax => Fin.ext (by
      match ax with
      | ⟨0, _⟩ => exact (plain_rhs0 M K N _ _).trans hk
      | ⟨1, _⟩ => exact plain_rhs1 M K N _ _)
  rw [el, er]

/-- A matrix product with plain dimension numbers into the zero accumulator, at `(r, c)`: `Σₖ a (r, k) · b (k, c)`.
    The dimension record may be any whose data are the plain ones (`hD`, by `rfl` for a printed record). -/
theorem matmul_plain_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (r : Fin M) (c : Fin N) :
    matmul D prec a b (constant ⟨2, ![M, N]⟩ .f32 0x00000000#32) (ix2 r c) = ∑ k : Fin K, a (ix2 r k) * b (ix2 k c) := by
  subst hD
  exact (Ideal.matmul_constant_zero_apply (DotDims.plain M K N) prec a b (ix2 r c)).trans (plain_sum M K N a b r c)

/-! ## A sum along the second axis -/

/-- A float sum over axis 1 of an `[R, n]` array from the zero word, at `r`: `Σₖ x (r, k)`. -/
theorem multiReduction_add_rows {R n : ℕ} {φ : FTy} (x : FVec Ideal ⟨2, ![R, n]⟩ φ) (acc : BitVec φ.bits)
    (h : (⟨2, ![R, n]⟩ : Shape).Reduces [1] ⟨1, ![R]⟩) (hφ : FKind.Formats φ) (hacc : acc = FKind.add.neutral φ hφ) (r : Fin R) :
    multiReduction .add [1] ⟨1, ![R]⟩ x acc h hφ hacc (ix1 r) = ∑ k : Fin n, x (ix2 r k) := by
  refine (Ideal.multiReduction_add_single x acc h hφ hacc (ix1 r)).trans ?_
  refine Finset.sum_congr rfl fun k _ => congrArg x (funext fun ax => Fin.ext ?_)
  match ax with
  | ⟨0, _⟩ => rfl
  | ⟨1, _⟩ => rfl

/-! ## Columns -/

variable {α : Type}

/-- An `[a]` array cast to a column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry in row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## Two arrays side by side -/

/-- Two arrays `[R, a]` and `[R, b]` joined along axis 1 into `[R, c]`, at `(r, k)`: the first at `(r, k)` when `k < a`,
    else the second at `(r, k - a)`. -/
theorem concatenate_cols_apply {R a b c : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, c]⟩ 1) (hc : c = a + b) (r : Fin R) (k : Fin c) :
    concatenate ⟨2, ![R, c]⟩ 1 [⟨⟨2, ![R, a]⟩, x₁⟩, ⟨⟨2, ![R, b]⟩, x₂⟩] h (ix2 r k)
      = if hk : k.val < a then x₁ (ix2 r ⟨k.val, hk⟩) else x₂ (ix2 r ⟨k.val - a, by omega⟩) := by
  split
  · next hk =>
    refine concatenate_pair_apply_left 1 x₁ x₂ h (ix2 r k) rfl (ix2 r ⟨k.val, hk⟩) fun ax => ?_
    match ax with
    | ⟨0, _⟩ => rfl
    | ⟨1, _⟩ => rfl
  · next hk =>
    refine concatenate_pair_apply_right 1 x₁ x₂ h (ix2 r k) rfl rfl (ix2 r ⟨k.val - a, by omega⟩) (fun ax hne => ?_) ?_
    · match ax with
      | ⟨0, _⟩ => rfl
      | ⟨1, _⟩ => exact absurd rfl hne
    · show k.val - a + a = k.val
      omega

end Cert.RowOps

end
-- ==== Proof.Spec.lean ====
/-
  The layers of the network as functions of whole arrays of extended reals, entry by entry.

  An array with two axes is read at a row and a column. The layers are: the product of an `[M, K]` array by a
  `[K, N]` array (entry `(r, c)` is the sum over `k` of left `(r, k)` times right `(k, c)`); a `[1, N]` row added to
  every row of an `[M, N]` array; and the larger of an entry and zero. The zero is kept as the float word it is
  written with, so that both programs meet the same term and it is never evaluated.
-/
import Idealize.ShloMosaic.PureOps.Ideal.Laws
import Idealize.ShloMosaic.Lib.ValueIdx

noncomputable section

namespace Cert.Spec

open Idealize.ShloMosaic Idealize.ShloMosaic.ValueIdx
open scoped BigOperators

/-- The row of an index of a two-axis array, typed by the first extent itself. -/
abbrev row {n0 n1 : ℕ} (i : (⟨2, ![n0, n1]⟩ : Shape).Idx) : Fin n0 := ⟨(i 0).val, idx2_lt0 i⟩
/-- The column of an index of a two-axis array, typed by the second extent itself. -/
abbrev col {n0 n1 : ℕ} (i : (⟨2, ![n0, n1]⟩ : Shape).Idx) : Fin n1 := ⟨(i 1).val, idx2_lt1 i⟩

/-- The float word of zero, at the extended reals. -/
abbrev zeroWord : EReal := Ideal.ofBits .f32 0x00000000#32

/-- The product of an `[M, K]` array by a `[K, N]` array: entry `(r, c)` is `Σₖ a (r, k) · b (k, c)`. -/
def matProd {M K N : ℕ} (a : (⟨2, ![M, K]⟩ : Shape).Idx → EReal) (b : (⟨2, ![K, N]⟩ : Shape).Idx → EReal) :
    (⟨2, ![M, N]⟩ : Shape).Idx → EReal :=
  fun i => ∑ k : Fin K, a (ix2 (row i) k) * b (ix2 k (col i))

theorem matProd_apply {M K N : ℕ} (a : (⟨2, ![M, K]⟩ : Shape).Idx → EReal) (b : (⟨2, ![K, N]⟩ : Shape).Idx → EReal)
    (r : Fin M) (c : Fin N) : matProd a b (ix2 r c) = ∑ k : Fin K, a (ix2 r k) * b (ix2 k c) := rfl

/-- A `[1, N]` row added to every row of an `[M, N]` array, then the larger of the sum and zero. -/
def biasRelu {M N : ℕ} (a : (⟨2, ![M, N]⟩ : Shape).Idx → EReal) (b : (⟨2, ![1, N]⟩ : Shape).Idx → EReal) :
    (⟨2, ![M, N]⟩ : Shape).Idx → EReal :=
  fun i => max (a i + b (ix2 (0 : Fin 1) (col i))) zeroWord

theorem biasRelu_apply {M N : ℕ} (a : (⟨2, ![M, N]⟩ : Shape).Idx → EReal) (b : (⟨2, ![1, N]⟩ : Shape).Idx → EReal)
    (r : Fin M) (c : Fin N) : biasRelu a b (ix2 r c) = max (a (ix2 r c) + b (ix2 (0 : Fin 1) c)) zeroWord := rfl

/-- A product with a `[1, N]` row added to every row. -/
def dense {M K N : ℕ} (a : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => matProd a w i + b (ix2 (0 : Fin 1) (col i))

theorem dense_apply {M K N : ℕ} (a : (⟨2, ![M, K]⟩ : Shape).Idx → EReal) (w : (⟨2, ![K, N]⟩ : Shape).Idx → EReal)
    (b : (⟨2, ![1, N]⟩ : Shape).Idx → EReal) (r : Fin M) (c : Fin N) :
    dense a w b (ix2 r c) = (∑ k : Fin K, a (ix2 r k) * w (ix2 k c)) + b (ix2 (0 : Fin 1) c) := rfl

/-- A product with a row added, then the larger of each entry and zero. -/
def denseRelu {M K N : ℕ} (a : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => max (dense a w b i) zeroWord

theorem denseRelu_apply {M K N : ℕ} (a : (⟨2, ![M, K]⟩ : Shape).Idx → EReal) (w : (⟨2, ![K, N]⟩ : Shape).Idx → EReal)
    (b : (⟨2, ![1, N]⟩ : Shape).Idx → EReal) (r : Fin M) (c : Fin N) :
    denseRelu a w b (ix2 r c) = max ((∑ k : Fin K, a (ix2 r k) * w (ix2 k c)) + b (ix2 (0 : Fin 1) c)) zeroWord := rfl

end Cert.Spec

end
-- ==== Proof.Payloads.lean ====
/-
  What each kernel body stores, read at a row and a column of its block, at the extended reals.

  The two product bodies store `Σₖ x (p, k) · w (k, q)` (a product into a zero accumulator; the operands' narrower
  float format is the identity here); the two bias bodies store the larger of `a (p, q) + b (0, q)` and zero; the
  two product-with-bias bodies store the product's entry plus `b (0, q)`, the first of them capped below by zero.
-/
import proofs.«165420_j63488206570136_1_alg».proof.Proof.Gen.KernelIdeal.Skeleton
import proofs.«165420_j63488206570136_1_alg».proof.Proof.LibRowOps
import proofs.«165420_j63488206570136_1_alg».proof.Proof.Spec
import Idealize.ShloMosaic.Lib.ValueLayout

noncomputable section

namespace Cert.KernelIdeal.Payloads

open Idealize.ShloMosaic Idealize.ShloMosaic.ValueIdx Cert.KernelIdeal Cert.KernelIdeal.Gen Cert.Spec
open scoped BigOperators

theorem pay0_apply (x0 : Vec Ideal S2000x128 .bf16) (x1 : Vec Ideal S128x64 .bf16) (p : Fin 2000) (q : Fin 64) :
    k0_pay1 (F := Ideal) x0 x1 (ix2 p q) = ∑ k : Fin 128, x0 (ix2 p k) * x1 (ix2 k q) := by
  unfold k0_pay1
  rw [shapeCast_self, shapeCast_self]
  exact Cert.RowOps.matmul_plain_apply _ rfl none x0 x1 p q

theorem pay1_apply (x0 : Vec Ideal S2000x64 .f32) (x1 : Vec Ideal S1x64 .f32) (p : Fin 2000) (q : Fin 64) :
    k1_pay1 (F := Ideal) x0 x1 (ix2 p q) = max (x0 (ix2 p q) + x1 (ix2 (0 : Fin 1) q)) zeroWord := by
  unfold k1_pay1
  rw [shapeCast_self, shapeCast_self, maximumf_apply, addf_apply, broadcastTo_1b_ab_apply]
  rfl

theorem pay2_apply (x0 : Vec Ideal S2000x64 .bf16) (x1 : Vec Ideal S64x64 .bf16) (p : Fin 2000) (q : Fin 64) :
    k2_pay1 (F := Ideal) x0 x1 (ix2 p q) = ∑ k : Fin 64, x0 (ix2 p k) * x1 (ix2 k q) := by
  unfold k2_pay1
  rw [shapeCast_self, shapeCast_self]
  exact Cert.RowOps.matmul_plain_apply _ rfl none x0 x1 p q

theorem pay3_apply (x0 : Vec Ideal S2000x64 .f32) (x1 : Vec Ideal S1x64 .f32) (p : Fin 2000) (q : Fin 64) :
    k3_pay1 (F := Ideal) x0 x1 (ix2 p q) = max (x0 (ix2 p q) + x1 (ix2 (0 : Fin 1) q)) zeroWord := by
  unfold k3_pay1
  rw [shapeCast_self, shapeCast_self, maximumf_apply, addf_apply, broadcastTo_1b_ab_apply]
  rfl

theorem pay4_apply (x0 : Vec Ideal S2000x64 .bf16) (x1 : Vec Ideal S64x32 .bf16) (x2 : Vec Ideal S1x32 .f32)
    (p : Fin 2000) (q : Fin 32) :
    k4_pay1 (F := Ideal) x0 x1 x2 (ix2 p q)
      = max ((∑ k : Fin 64, x0 (ix2 p k) * x1 (ix2 k q)) + x2 (ix2 (0 : Fin 1) q)) zeroWord := by
  unfold k4_pay1
  rw [shapeCast_self, shapeCast_self, shapeCast_self, maximumf_apply, addf_apply, broadcastTo_1b_ab_apply,
    Cert.RowOps.matmul_plain_apply dot_S2000x64_S64x32_S2000x32_1_0_0_1_n_n rfl none x0 x1 p q]
  rfl

theorem pay5_apply (x0 : Vec Ideal S2000x32 .bf16) (x1 : Vec Ideal S32x3 .bf16) (x2 : Vec Ideal S1x3 .f32)
    (p : Fin 2000) (q : Fin 3) :
    k5_pay1 (F := Ideal) x0 x1 x2 (ix2 p q)
      = (∑ k : Fin 32, x0 (ix2 p k) * x1 (ix2 k q)) + x2 (ix2 (0 : Fin 1) q) := by
  unfold k5_pay1
  rw [shapeCast_self, shapeCast_self, shapeCast_self, addf_apply, broadcastTo_1b_ab_apply,
    Cert.RowOps.matmul_plain_apply dot_S2000x32_S32x3_S2000x3_1_0_0_1_n_n rfl none x0 x1 p q]

end Cert.KernelIdeal.Payloads

end
-- ==== Proof.Region0.lean ====
/-
  The first product region, as one function of the arrays it is entered with.

  The grid has 25 points. At point `t` the body reads rows `2000 t … 2000 t + 1999` of the `[50000, 128]` array and the
  whole `[128, 64]` array, and writes rows `2000 t …` of the `[50000, 64]` result: entry `(p, q)` of its block is
  `Σₖ x (2000 t + p, k) · w (k, q)`, which is entry `(2000 t + p, q)` of the product of the two whole arrays. Row `r` of
  the result lies in the block of point `r / 2000`, so the blocks cover the result, and after the region the result
  array is the product.
-/
import proofs.«165420_j63488206570136_1_alg».proof.Proof.Gen.KernelIdeal.Frame
import proofs.«165420_j63488206570136_1_alg».proof.Proof.Payloads
import proofs.«165420_j63488206570136_1_alg».proof.Proof.Spec

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec Cert.KernelIdeal.Payloads
open scoped BigOperators

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The `[50000, 128]` array and the `[128, 64]` array the region is entered with. -/
abbrev xarr (c : Dev nD) : Vec Ideal S50000x128 .bf16 := V c (Pipeline.arrRef spec0 0)
abbrev warr (c : Dev nD) : Vec Ideal S128x64 .bf16 := V c (Pipeline.arrRef spec0 1)

/-- The index maps over the grid: the first window and the result's move with the point along axis 0, the second
    window stays at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem tlt (t : Fin cfg0.N) : t.val < 25 := N_0 ▸ t.isLt

/-- Where the result's block at point `t` puts its entry `(p, q)`: row `2000 t + p`, column `q`. -/
theorem emb_out (t : Fin cfg0.N) (p : Fin 2000) (q : Fin 64) :
    ((cfg0.win 2).blk t).view.emb (ix2 p q) = ix2 (⟨t.val * 2000 + p.val, by have := tlt t; omega⟩ : Fin 50000) q := by
  obtain ⟨e0, e1, e2, e3, e4, e5⟩ := idx_facts t
  funext a; apply Fin.ext
  match a with
  | ⟨0, _⟩ => show win0_2.index t (0 : Fin 2) * 2000 + 1 * p.val = t.val * 2000 + p.val; omega
  | ⟨1, _⟩ => show win0_2.index t (1 : Fin 2) * 64 + 1 * q.val = q.val; omega

/-- The first window's block at point `t` holds rows `2000 t …` of its array. -/
theorem emb_x (t : Fin cfg0.N) (p : Fin 2000) (k : Fin 128) :
    ((cfg0.win 0).blk t).view.emb (ix2 p k) = ix2 (⟨t.val * 2000 + p.val, by have := tlt t; omega⟩ : Fin 50000) k := by
  obtain ⟨e0, e1, e2, e3, e4, e5⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

/-- The second window's block is its whole array at every point. -/
theorem emb_w (t : Fin cfg0.N) (k : Fin 128) (q : Fin 64) :
    ((cfg0.win 1).blk t).view.emb (ix2 k q) = ix2 k q := by
  obtain ⟨e0, e1, e2, e3, e4, e5⟩ := idx_facts t
  funext a; apply Fin.ext
  match a with
  | ⟨0, _⟩ => show win0_1.index t (0 : Fin 2) * 128 + 1 * k.val = k.val; omega
  | ⟨1, _⟩ => show win0_1.index t (1 : Fin 2) * 64 + 1 * q.val = q.val; omega

/-- What point `t` writes back is block `t` of the product of the two whole arrays. -/
theorem flushed_eq (c : Dev nD) (t : Fin cfg0.N) :
    (dat0 V c).flushed 2 t = ((cfg0.win 2).blk t).view.read (Elt Ideal) (matProd (xarr V c) (warr V c)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x64) hz]
  funext j
  show k0_pay1 (iblk0 V c 0 t) (iblk0 V c 1 t) j = matProd (xarr V c) (warr V c) (((cfg0.win 2).blk t).view.emb j)
  obtain ⟨p, q, rfl⟩ : ∃ (p : Fin 2000) (q : Fin 64), j = ix2 p q := ⟨j 0, j 1, eq_ix2 j⟩
  refine (pay0_apply _ _ p q).trans ?_
  rw [emb_out, matProd_apply]
  refine Finset.sum_congr rfl fun k _ => ?_
  have hx : iblk0 V c 0 t (ix2 p k) = xarr V c (ix2 (⟨t.val * 2000 + p.val, by have := tlt t; omega⟩ : Fin 50000) k) :=
    congrArg (xarr V c) (emb_x t p k)
  have hw : iblk0 V c 1 t (ix2 k q) = warr V c (ix2 k q) := congrArg (warr V c) (emb_w t k q)
  rw [hx, hw]

/-- An index of the result array is in point `t`'s block iff each coordinate is in the block's range on its axis. -/
theorem mem_blk (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v35).slice (win0_2.rect t)).set ↔ _
  rw [View.set_slice_whole, Rect.mem_set_unit]
  exact Iff.rfl

/-- Row `r` of the result lies in the block of point `r / 2000`. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : (i 0).val / 2000 < cfg0.N := by rw [show cfg0.N = 25 from N_0]; omega
  refine ⟨⟨(i 0).val / 2000, hN⟩, flush0_2 _, ?_⟩
  rw [mem_blk]
  obtain ⟨e0, e1, e2, e3, e4, e5⟩ := idx_facts ⟨(i 0).val / 2000, hN⟩
  intro a
  match a with
  | ⟨0, _⟩ =>
    show win0_2.index ⟨(i 0).val / 2000, hN⟩ (0 : Fin 2) * 2000 ≤ (i 0).val ∧ (i 0).val < win0_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hN⟩ (1 : Fin 2) * 64 ≤ (i 1).val ∧ (i 1).val < win0_2.index ⟨(i 0).val / 2000, hN⟩ (1 : Fin 2) * 64 + 64
    rw [e5]; omega

/-- After the region the result array is the product of the two arrays the region was entered with. -/
theorem arr (c : Dev nD) : (dat0 V c).arrAt 2 cfg0.N = matProd (xarr V c) (warr V c) :=
  (dat0 V c).arrAt_eq_of_cover 2 _ (fun t _ => flushed_eq V c t) cover

end Cert.KernelIdeal.Region0

end
-- ==== Proof.Region1.lean ====
/-
  The first bias region, as one function of the arrays it is entered with.

  The grid has 25 points. At point `t` the body reads rows `2000 t … 2000 t + 1999` of the `[50000, 64]` array and the
  whole `[1, 64]` bias row, and writes rows `2000 t …` of the `[50000, 64]` result: entry `(p, q)` of its block is the
  larger of `a (2000 t + p, q) + b (0, q)` and zero. Row `r` of the result lies in the block of point `r / 2000`, so
  the blocks cover the result, and after the region the result array is the bias added to every row, capped below by zero.
-/
import proofs.«165420_j63488206570136_1_alg».proof.Proof.Gen.KernelIdeal.Frame
import proofs.«165420_j63488206570136_1_alg».proof.Proof.Payloads
import proofs.«165420_j63488206570136_1_alg».proof.Proof.Spec

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec Cert.KernelIdeal.Payloads
open scoped BigOperators

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The `[50000, 64]` array and the `[1, 64]` row the region is entered with. -/
abbrev aarr (c : Dev nD) : Vec Ideal S50000x64 .f32 := V c (Pipeline.arrRef spec1 0)
abbrev barr (c : Dev nD) : Vec Ideal S1x64 .f32 := V c (Pipeline.arrRef spec1 1)

/-- The index maps over the grid: the first window and the result's move with the point along axis 0, the bias
    window stays at block `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem tlt (t : Fin cfg1.N) : t.val < 25 := N_1 ▸ t.isLt

/-- Where the result's block at point `t` puts its entry `(p, q)`: row `2000 t + p`, column `q`. -/
theorem emb_out (t : Fin cfg1.N) (p : Fin 2000) (q : Fin 64) :
    ((cfg1.win 2).blk t).view.emb (ix2 p q) = ix2 (⟨t.val * 2000 + p.val, by have := tlt t; omega⟩ : Fin 50000) q := by
  obtain ⟨e0, e1, e2, e3, e4, e5⟩ := idx_facts t
  funext a; apply Fin.ext
  match a with
  | ⟨0, _⟩ => show win1_2.index t (0 : Fin 2) * 2000 + 1 * p.val = t.val * 2000 + p.val; omega
  | ⟨1, _⟩ => show win1_2.index t (1 : Fin 2) * 64 + 1 * q.val = q.val; omega

/-- The first window's block at point `t` holds rows `2000 t …` of its array. -/
theorem emb_a (t : Fin cfg1.N) (p : Fin 2000) (q : Fin 64) :
    ((cfg1.win 0).blk t).view.emb (ix2 p q) = ix2 (⟨t.val * 2000 + p.val, by have := tlt t; omega⟩ : Fin 50000) q := by
  obtain ⟨e0, e1, e2, e3, e4, e5⟩ := idx_facts t
  funext a; apply Fin.ext
  match a with
  | ⟨0, _⟩ => show win1_0.index t (0 : Fin 2) * 2000 + 1 * p.val = t.val * 2000 + p.val; omega
  | ⟨1, _⟩ => show win1_0.index t (1 : Fin 2) * 64 + 1 * q.val = q.val; omega

/-- The bias window's block is its whole row at every point. -/
theorem emb_b (t : Fin cfg1.N) (u : Fin 1) (q : Fin 64) :
    ((cfg1.win 1).blk t).view.emb (ix2 u q) = ix2 u q := by
  obtain ⟨e0, e1, e2, e3, e4, e5⟩ := idx_facts t
  funext a; apply Fin.ext
  match a with
  | ⟨0, _⟩ => show win1_1.index t (0 : Fin 2) * 1 + 1 * u.val = u.val; omega
  | ⟨1, _⟩ => show win1_1.index t (1 : Fin 2) * 64 + 1 * q.val = q.val; omega

/-- What point `t` writes back is block `t` of the bias added to every row of the whole array, capped below by zero. -/
theorem flushed_eq (c : Dev nD) (t : Fin cfg1.N) :
    (dat1 V c).flushed 2 t = ((cfg1.win 2).blk t).view.read (Elt Ideal) (biasRelu (aarr V c) (barr V c)) := by
  show (cfg1.win 2).cut (grid1.coords t) ((dat1 V c).after 2 t) = _
  rw [after1_2]
  unfold out1_2
  rw [View.canon_unit_zero hz]
  simp only [View.ld_unit_zero (S := S2000x64) hz, View.ld_unit_zero (S := S1x64) hz]
  funext j
  show k1_pay1 (iblk1 V c 0 t) (iblk1 V c 1 t) j = biasRelu (aarr V c) (barr V c) (((cfg1.win 2).blk t).view.emb j)
  obtain ⟨p, q, rfl⟩ : ∃ (p : Fin 2000) (q : Fin 64), j = ix2 p q := ⟨j 0, j 1, eq_ix2 j⟩
  refine (pay1_apply _ _ p q).trans ?_
  rw [emb_out, biasRelu_apply]
  have ha : iblk1 V c 0 t (ix2 p q) = aarr V c (ix2 (⟨t.val * 2000 + p.val, by have := tlt t; omega⟩ : Fin 50000) q) :=
    congrArg (aarr V c) (emb_a t p q)
  have hb : iblk1 V c 1 t (ix2 (0 : Fin 1) q) = barr V c (ix2 (0 : Fin 1) q) := congrArg (barr V c) (emb_b t 0 q)
  rw [ha, hb]

/-- An index of the result array is in point `t`'s block iff each coordinate is in the block's range on its axis. -/
theorem mem_blk (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v50).slice (win1_2.rect t)).set ↔ _
  rw [View.set_slice_whole, Rect.mem_set_unit]
  exact Iff.rfl

/-- Row `r` of the result lies in the block of point `r / 2000`. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : (i 0).val / 2000 < cfg1.N := by rw [show cfg1.N = 25 from N_1]; omega
  refine ⟨⟨(i 0).val / 2000, hN⟩, flush1_2 _, ?_⟩
  rw [mem_blk]
  obtain ⟨e0, e1, e2, e3, e4, e5⟩ := idx_facts ⟨(i 0).val / 2000, hN⟩
  intro a
  match a with
  | ⟨0, _⟩ =>
    show win1_2.index ⟨(i 0).val / 2000, hN⟩ (0 : Fin 2) * 2000 ≤ (i 0).val ∧ (i 0).val < win1_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, hN⟩ (1 : Fin 2) * 64 ≤ (i 1).val ∧ (i 1).val < win1_2.index ⟨(i 0).val / 2000, hN⟩ (1 : Fin 2) * 64 + 64
    rw [e5]; omega

/-- After the region the result array is the bias added to every row of the array the region was entered with, capped
    below by zero. -/
theorem arr (c : Dev nD) : (dat1 V c).arrAt 2 cfg1.N = biasRelu (aarr V c) (barr V c) :=
  (dat1 V c).arrAt_eq_of_cover 2 _ (fun t _ => flushed_eq V c t) cover

end Cert.KernelIdeal.Region1

end
-- ==== Proof.Region2.lean ====
/-
  The second product region, as one function of the arrays it is entered with.

  The grid has 25 points. At point `t` the body reads rows `2000 t … 2000 t + 1999` of the `[50000, 64]` array and the
  whole `[64, 64]` array, and writes rows `2000 t …` of the `[50000, 64]` result: entry `(p, q)` of its block is
  `Σₖ x (2000 t + p, k) · w (k, q)`, which is entry `(2000 t + p, q)` of the product of the two whole arrays. Row `r` of
  the result lies in the block of point `r / 2000`, so the blocks cover the result, and after the region the result
  array is the product.
-/
import proofs.«165420_j63488206570136_1_alg».proof.Proof.Gen.KernelIdeal.Frame
import proofs.«165420_j63488206570136_1_alg».proof.Proof.Payloads
import proofs.«165420_j63488206570136_1_alg».proof.Proof.Spec

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec Cert.KernelIdeal.Payloads
open scoped BigOperators

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The `[50000, 64]` array and the `[64, 64]` array the region is entered with. -/
abbrev xarr (c : Dev nD) : Vec Ideal S50000x64 .bf16 := V c (Pipeline.arrRef spec2 0)
abbrev warr (c : Dev nD) : Vec Ideal S64x64 .bf16 := V c (Pipeline.arrRef spec2 1)

/-- The index maps over the grid: the first window and the result's move with the point along axis 0, the second
    window stays at block `(0, 0)`. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem tlt (t : Fin cfg2.N) : t.val < 25 := N_2 ▸ t.isLt

/-- Where the result's block at point `t` puts its entry `(p, q)`: row `2000 t + p`, column `q`. -/
theorem emb_out (t : Fin cfg2.N) (p : Fin 2000) (q : Fin 64) :
    ((cfg2.win 2).blk t).view.emb (ix2 p q) = ix2 (⟨t.val * 2000 + p.val, by have := tlt t; omega⟩ : Fin 50000) q := by
  obtain ⟨e0, e1, e2, e3, e4, e5⟩ := idx_facts t
  funext a; apply Fin.ext
  match a with
  | ⟨0, _⟩ => show win2_2.index t (0 : Fin 2) * 2000 + 1 * p.val = t.val * 2000 + p.val; omega
  | ⟨1, _⟩ => show win2_2.index t (1 : Fin 2) * 64 + 1 * q.val = q.val; omega

/-- The first window's block at point `t` holds rows `2000 t …` of its array. -/
theorem emb_x (t : Fin cfg2.N) (p : Fin 2000) (k : Fin 64) :
    ((cfg2.win 0).blk t).view.emb (ix2 p k) = ix2 (⟨t.val * 2000 + p.val, by have := tlt t; omega⟩ : Fin 50000) k := by
  obtain ⟨e0, e1, e2, e3, e4, e5⟩ := idx_facts t
  funext a; apply Fin.ext
  match a with
  | ⟨0, _⟩ => show win2_0.index t (0 : Fin 2) * 2000 + 1 * p.val = t.val * 2000 + p.val; omega
  | ⟨1, _⟩ => show win2_0.index t (1 : Fin 2) * 64 + 1 * k.val = k.val; omega

/-- The second window's block is its whole array at every point. -/
theorem emb_w (t : Fin cfg2.N) (k : Fin 64) (q : Fin 64) :
    ((cfg2.win 1).blk t).view.emb (ix2 k q) = ix2 k q := by
  obtain ⟨e0, e1, e2, e3, e4, e5⟩ := idx_facts t
  funext a; apply Fin.ext
  match a with
  | ⟨0, _⟩ => show win2_1.index t (0 : Fin 2) * 64 + 1 * k.val = k.val; omega
  | ⟨1, _⟩ => show win2_1.index t (1 : Fin 2) * 64 + 1 * q.val = q.val; omega

/-- What point `t` writes back is block `t` of the product of the two whole arrays. -/
theorem flushed_eq (c : Dev nD) (t : Fin cfg2.N) :
    (dat2 V c).flushed 2 t = ((cfg2.win 2).blk t).view.read (Elt Ideal) (matProd (xarr V c) (warr V c)) := by
  show (cfg2.win 2).cut (grid2.coords t) ((dat2 V c).after 2 t) = _
  rw [after2_2]
  unfold out2_2
  rw [View.canon_unit_zero hz]
  simp only [View.ld_unit_zero (S := S2000x64) hz, View.ld_unit_zero (S := S64x64) hz]
  funext j
  show k2_pay1 (iblk2 V c 0 t) (iblk2 V c 1 t) j = matProd (xarr V c) (warr V c) (((cfg2.win 2).blk t).view.emb j)
  obtain ⟨p, q, rfl⟩ : ∃ (p : Fin 2000) (q : Fin 64), j = ix2 p q := ⟨j 0, j 1, eq_ix2 j⟩
  refine (pay2_apply _ _ p q).trans ?_
  rw [emb_out, matProd_apply]
  refine Finset.sum_congr rfl fun k _ => ?_
  have hx : iblk2 V c 0 t (ix2 p k) = xarr V c (ix2 (⟨t.val * 2000 + p.val, by have := tlt t; omega⟩ : Fin 50000) k) :=
    congrArg (xarr V c) (emb_x t p k)
  have hw : iblk2 V c 1 t (ix2 k q) = warr V c (ix2 k q) := congrArg (warr V c) (emb_w t k q)
  rw [hx, hw]

/-- An index of the result array is in point `t`'s block iff each coordinate is in the block's range on its axis. -/
theorem mem_blk (t : Fin cfg2.N) (i : S50000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v53).slice (win2_2.rect t)).set ↔ _
  rw [View.set_slice_whole, Rect.mem_set_unit]
  exact Iff.rfl

/-- Row `r` of the result lies in the block of point `r / 2000`. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : (i 0).val / 2000 < cfg2.N := by rw [show cfg2.N = 25 from N_2]; omega
  refine ⟨⟨(i 0).val / 2000, hN⟩, flush2_2 _, ?_⟩
  rw [mem_blk]
  obtain ⟨e0, e1, e2, e3, e4, e5⟩ := idx_facts ⟨(i 0).val / 2000, hN⟩
  intro a
  match a with
  | ⟨0, _⟩ =>
    show win2_2.index ⟨(i 0).val / 2000, hN⟩ (0 : Fin 2) * 2000 ≤ (i 0).val ∧ (i 0).val < win2_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, hN⟩ (1 : Fin 2) * 64 ≤ (i 1).val ∧ (i 1).val < win2_2.index ⟨(i 0).val / 2000, hN⟩ (1 : Fin 2) * 64 + 64
    rw [e5]; omega

/-- After the region the result array is the product of the two arrays the region was entered with. -/
theorem arr (c : Dev nD) : (dat2 V c).arrAt 2 cfg2.N = matProd (xarr V c) (warr V c) :=
  (dat2 V c).arrAt_eq_of_cover 2 _ (fun t _ => flushed_eq V c t) cover

end Cert.KernelIdeal.Region2

end
-- ==== Proof.Region3.lean ====
/-
  The second bias region, as one function of the arrays it is entered with.

  The grid has 25 points. At point `t` the body reads rows `2000 t … 2000 t + 1999` of the `[50000, 64]` array and the
  whole `[1, 64]` bias row, and writes rows `2000 t …` of the `[50000, 64]` result: entry `(p, q)` of its block is the
  larger of `a (2000 t + p, q) + b (0, q)` and zero. Row `r` of the result lies in the block of point `r / 2000`, so
  the blocks cover the result, and after the region the result array is the bias added to every row, capped below by zero.
-/
import proofs.«165420_j63488206570136_1_alg».proof.Proof.Gen.KernelIdeal.Frame
import proofs.«165420_j63488206570136_1_alg».proof.Proof.Payloads
import proofs.«165420_j63488206570136_1_alg».proof.Proof.Spec

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec Cert.KernelIdeal.Payloads
open scoped BigOperators

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The `[50000, 64]` array and the `[1, 64]` row the region is entered with. -/
abbrev aarr (c : Dev nD) : Vec Ideal S50000x64 .f32 := V c (Pipeline.arrRef spec3 0)
abbrev barr (c : Dev nD) : Vec Ideal S1x64 .f32 := V c (Pipeline.arrRef spec3 1)

/-- The index maps over the grid: the first window and the result's move with the point along axis 0, the bias
    window stays at block `(0, 0)`. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem tlt (t : Fin cfg3.N) : t.val < 25 := N_3 ▸ t.isLt

/-- Where the result's block at point `t` puts its entry `(p, q)`: row `2000 t + p`, column `q`. -/
theorem emb_out (t : Fin cfg3.N) (p : Fin 2000) (q : Fin 64) :
    ((cfg3.win 2).blk t).view.emb (ix2 p q) = ix2 (⟨t.val * 2000 + p.val, by have := tlt t; omega⟩ : Fin 50000) q := by
  obtain ⟨e0, e1, e2, e3, e4, e5⟩ := idx_facts t
  funext a; apply Fin.ext
  match a with
  | ⟨0, _⟩ => show win3_2.index t (0 : Fin 2) * 2000 + 1 * p.val = t.val * 2000 + p.val; omega
  | ⟨1, _⟩ => show win3_2.index t (1 : Fin 2) * 64 + 1 * q.val = q.val; omega

/-- The first window's block at point `t` holds rows `2000 t …` of its array. -/
theorem emb_a (t : Fin cfg3.N) (p : Fin 2000) (q : Fin 64) :
    ((cfg3.win 0).blk t).view.emb (ix2 p q) = ix2 (⟨t.val * 2000 + p.val, by have := tlt t; omega⟩ : Fin 50000) q := by
  obtain ⟨e0, e1, e2, e3, e4, e5⟩ := idx_facts t
  funext a; apply Fin.ext
  match a with
  | ⟨0, _⟩ => show win3_0.index t (0 : Fin 2) * 2000 + 1 * p.val = t.val * 2000 + p.val; omega
  | ⟨1, _⟩ => show win3_0.index t (1 : Fin 2) * 64 + 1 * q.val = q.val; omega

/-- The bias window's block is its whole row at every point. -/
theorem emb_b (t : Fin cfg3.N) (u : Fin 1) (q : Fin 64) :
    ((cfg3.win 1).blk t).view.emb (ix2 u q) = ix2 u q := by
  obtain ⟨e0, e1, e2, e3, e4, e5⟩ := idx_facts t
  funext a; apply Fin.ext
  match a with
  | ⟨0, _⟩ => show win3_1.index t (0 : Fin 2) * 1 + 1 * u.val = u.val; omega
  | ⟨1, _⟩ => show win3_1.index t (1 : Fin 2) * 64 + 1 * q.val = q.val; omega

/-- What point `t` writes back is block `t` of the bias added to every row of the whole array, capped below by zero. -/
theorem flushed_eq (c : Dev nD) (t : Fin cfg3.N) :
    (dat3 V c).flushed 2 t = ((cfg3.win 2).blk t).view.read (Elt Ideal) (biasRelu (aarr V c) (barr V c)) := by
  show (cfg3.win 2).cut (grid3.coords t) ((dat3 V c).after 2 t) = _
  rw [after3_2]
  unfold out3_2
  rw [View.canon_unit_zero hz]
  simp only [View.ld_unit_zero (S := S2000x64) hz, View.ld_unit_zero (S := S1x64) hz]
  funext j
  show k3_pay1 (iblk3 V c 0 t) (iblk3 V c 1 t) j = biasRelu (aarr V c) (barr V c) (((cfg3.win 2).blk t).view.emb j)
  obtain ⟨p, q, rfl⟩ : ∃ (p : Fin 2000) (q : Fin 64), j = ix2 p q := ⟨j 0, j 1, eq_ix2 j⟩
  refine (pay3_apply _ _ p q).trans ?_
  rw [emb_out, biasRelu_apply]
  have ha : iblk3 V c 0 t (ix2 p q) = aarr V c (ix2 (⟨t.val * 2000 + p.val, by have := tlt t; omega⟩ : Fin 50000) q) :=
    congrArg (aarr V c) (emb_a t p q)
  have hb : iblk3 V c 1 t (ix2 (0 : Fin 1) q) = barr V c (ix2 (0 : Fin 1) q) := congrArg (barr V c) (emb_b t 0 q)
  rw [ha, hb]

/-- An index of the result array is in point `t`'s block iff each coordinate is in the block's range on its axis. -/
theorem mem_blk (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v68).slice (win3_2.rect t)).set ↔ _
  rw [View.set_slice_whole, Rect.mem_set_unit]
  exact Iff.rfl

/-- Row `r` of the result lies in the block of point `r / 2000`. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : (i 0).val / 2000 < cfg3.N := by rw [show cfg3.N = 25 from N_3]; omega
  refine ⟨⟨(i 0).val / 2000, hN⟩, flush3_2 _, ?_⟩
  rw [mem_blk]
  obtain ⟨e0, e1, e2, e3, e4, e5⟩ := idx_facts ⟨(i 0).val / 2000, hN⟩
  intro a
  match a with
  | ⟨0, _⟩ =>
    show win3_2.index ⟨(i 0).val / 2000, hN⟩ (0 : Fin 2) * 2000 ≤ (i 0).val ∧ (i 0).val < win3_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win3_2.index ⟨(i 0).val / 2000, hN⟩ (1 : Fin 2) * 64 ≤ (i 1).val ∧ (i 1).val < win3_2.index ⟨(i 0).val / 2000, hN⟩ (1 : Fin 2) * 64 + 64
    rw [e5]; omega

/-- After the region the result array is the bias added to every row of the array the region was entered with, capped
    below by zero. -/
theorem arr (c : Dev nD) : (dat3 V c).arrAt 2 cfg3.N = biasRelu (aarr V c) (barr V c) :=
  (dat3 V c).arrAt_eq_of_cover 2 _ (fun t _ => flushed_eq V c t) cover

end Cert.KernelIdeal.Region3

end
-- ==== Proof.Region4.lean ====
/-
  The first product-with-bias region, as one function of the arrays it is entered with.

  The grid has 25 points. At point `t` the body reads rows `2000 t … 2000 t + 1999` of the `[50000, 64]` array, the whole
  `[64, 32]` array and the whole `[1, 32]` bias row, and writes rows `2000 t …` of the `[50000, 32]` result: entry
  `(p, q)` of its block is the larger of `Σₖ x (2000 t + p, k) · w (k, q) + b (0, q)` and zero. Row `r` of the result
  lies in the block of point `r / 2000`, so the blocks cover the result, and after the region the result array is the
  product with the bias added to every row, capped below by zero.
-/
import proofs.«165420_j63488206570136_1_alg».proof.Proof.Gen.KernelIdeal.Frame
import proofs.«165420_j63488206570136_1_alg».proof.Proof.Payloads
import proofs.«165420_j63488206570136_1_alg».proof.Proof.Spec

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec Cert.KernelIdeal.Payloads
open scoped BigOperators

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The `[50000, 64]` array, the `[64, 32]` array and the `[1, 32]` row the region is entered with. -/
abbrev xarr (c : Dev nD) : Vec Ideal S50000x64 .bf16 := V c (Pipeline.arrRef spec4 0)
abbrev warr (c : Dev nD) : Vec Ideal S64x32 .bf16 := V c (Pipeline.arrRef spec4 1)
abbrev barr (c : Dev nD) : Vec Ideal S1x32 .f32 := V c (Pipeline.arrRef spec4 2)

/-- The three blocks the body reads at point `t`, at their literal types. -/
abbrev xblk (c : Dev nD) (t : Fin cfg4.N) : Vec Ideal S2000x64 .bf16 := iblk4 V c 0 t
abbrev wblk (c : Dev nD) (t : Fin cfg4.N) : Vec Ideal S64x32 .bf16 := iblk4 V c 1 t
abbrev bblk (c : Dev nD) (t : Fin cfg4.N) : Vec Ideal S1x32 .f32 := iblk4 V c 2 t

/-- The index maps over the grid: the first window and the result's move with the point along axis 0, the other two
    windows stay at block `(0, 0)`. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem tlt (t : Fin cfg4.N) : t.val < 25 := N_4 ▸ t.isLt

/-- Where the result's block at point `t` puts its entry `(p, q)`: row `2000 t + p`, column `q`. -/
theorem emb_out (t : Fin cfg4.N) (p : Fin 2000) (q : Fin 32) :
    ((cfg4.win 3).blk t).view.emb (ix2 p q) = ix2 (⟨t.val * 2000 + p.val, by have := tlt t; omega⟩ : Fin 50000) q := by
  obtain ⟨e0, e1, e2, e3, e4, e5, e6, e7⟩ := idx_facts t
  funext a; apply Fin.ext
  match a with
  | ⟨0, _⟩ => show win4_3.index t (0 : Fin 2) * 2000 + 1 * p.val = t.val * 2000 + p.val; omega
  | ⟨1, _⟩ => show win4_3.index t (1 : Fin 2) * 32 + 1 * q.val = q.val; omega

/-- The first window's block at point `t` holds rows `2000 t …` of its array. -/
theorem emb_x (t : Fin cfg4.N) (p : Fin 2000) (k : Fin 64) :
    ((cfg4.win 0).blk t).view.emb (ix2 p k) = ix2 (⟨t.val * 2000 + p.val, by have := tlt t; omega⟩ : Fin 50000) k := by
  obtain ⟨e0, e1, e2, e3, e4, e5, e6, e7⟩ := idx_facts t
  funext a; apply Fin.ext
  match a with
  | ⟨0, _⟩ => show win4_0.index t (0 : Fin 2) * 2000 + 1 * p.val = t.val * 2000 + p.val; omega
  | ⟨1, _⟩ => show win4_0.index t (1 : Fin 2) * 64 + 1 * k.val = k.val; omega

/-- The second window's block is its whole array at every point. -/
theorem emb_w (t : Fin cfg4.N) (k : Fin 64) (q : Fin 32) :
    ((cfg4.win 1).blk t).view.emb (ix2 k q) = ix2 k q := by
  obtain ⟨e0, e1, e2, e3, e4, e5, e6, e7⟩ := idx_facts t
  funext a; apply Fin.ext
  match a with
  | ⟨0, _⟩ => show win4_1.index t (0 : Fin 2) * 64 + 1 * k.val = k.val; omega
  | ⟨1, _⟩ => show win4_1.index t (1 : Fin 2) * 32 + 1 * q.val = q.val; omega

/-- The bias window's block is its whole row at every point. -/
theorem emb_b (t : Fin cfg4.N) (u : Fin 1) (q : Fin 32) :
    ((cfg4.win 2).blk t).view.emb (ix2 u q) = ix2 u q := by
  obtain ⟨e0, e1, e2, e3, e4, e5, e6, e7⟩ := idx_facts t
  funext a; apply Fin.ext
  match a with
  | ⟨0, _⟩ => show win4_2.index t (0 : Fin 2) * 1 + 1 * u.val = u.val; omega
  | ⟨1, _⟩ => show win4_2.index t (1 : Fin 2) * 32 + 1 * q.val = q.val; omega

/-- What point `t` writes back is block `t` of the product of the whole arrays with the bias added, capped below by zero. -/
theorem flushed_eq (c : Dev nD) (t : Fin cfg4.N) :
    (dat4 V c).flushed 3 t = ((cfg4.win 3).blk t).view.read (Elt Ideal) (denseRelu (xarr V c) (warr V c) (barr V c)) := by
  show (cfg4.win 3).cut (grid4.coords t) ((dat4 V c).after 3 t) = _
  rw [after4_3]
  unfold out4_3
  rw [View.canon_unit_zero hz]
  simp only [View.ld_unit_zero (S := S2000x64) hz, View.ld_unit_zero (S := S64x32) hz, View.ld_unit_zero (S := S1x32) hz]
  funext j
  show k4_pay1 (xblk V c t) (wblk V c t) (bblk V c t) j
    = denseRelu (xarr V c) (warr V c) (barr V c) (((cfg4.win 3).blk t).view.emb j)
  obtain ⟨p, q, rfl⟩ : ∃ (p : Fin 2000) (q : Fin 32), j = ix2 p q := ⟨j 0, j 1, eq_ix2 j⟩
  refine (pay4_apply (xblk V c t) (wblk V c t) (bblk V c t) p q).trans ?_
  rw [emb_out, denseRelu_apply]
  have hx : ∀ k : Fin 64, xblk V c t (ix2 p k)
      = xarr V c (ix2 (⟨t.val * 2000 + p.val, by have := tlt t; omega⟩ : Fin 50000) k) :=
    fun k => congrArg (xarr V c) (emb_x t p k)
  have hw : ∀ k : Fin 64, wblk V c t (ix2 k q) = warr V c (ix2 k q) := fun k => congrArg (warr V c) (emb_w t k q)
  have hb : bblk V c t (ix2 (0 : Fin 1) q) = barr V c (ix2 (0 : Fin 1) q) := congrArg (barr V c) (emb_b t 0 q)
  simp only [hx, hw, hb]

/-- An index of the result array is in point `t`'s block iff each coordinate is in the block's range on its axis. -/
theorem mem_blk (t : Fin cfg4.N) (i : S50000x32.Idx) :
    i ∈ ((cfg4.win 3).blk t).view.set ↔ ∀ a : Fin 2, win4_3.index t a * S2000x32.size a ≤ (i a).val ∧ (i a).val < win4_3.index t a * S2000x32.size a + S2000x32.size a := by
  show i ∈ ((View.whole main_v72).slice (win4_3.rect t)).set ↔ _
  rw [View.set_slice_whole, Rect.mem_set_unit]
  exact Iff.rfl

/-- Row `r` of the result lies in the block of point `r / 2000`. -/
theorem cover (i : S50000x32.Idx) : ∃ t : Fin cfg4.N, (cfg4.win 3).flush t = true ∧ i ∈ ((cfg4.win 3).blk t).view.set := by
  have hi0 : (i 0).val < 50000 := (i 0).isLt
  have hi1 : (i 1).val < 32 := (i 1).isLt
  have hN : (i 0).val / 2000 < cfg4.N := by rw [show cfg4.N = 25 from N_4]; omega
  refine ⟨⟨(i 0).val / 2000, hN⟩, flush4_3 _, ?_⟩
  rw [mem_blk]
  obtain ⟨e0, e1, e2, e3, e4, e5, e6, e7⟩ := idx_facts ⟨(i 0).val / 2000, hN⟩
  intro a
  match a with
  | ⟨0, _⟩ =>
    show win4_3.index ⟨(i 0).val / 2000, hN⟩ (0 : Fin 2) * 2000 ≤ (i 0).val ∧ (i 0).val < win4_3.index ⟨(i 0).val / 2000, hN⟩ (0 : Fin 2) * 2000 + 2000
    rw [e6]; show (i 0).val / 2000 * 2000 ≤ (i 0).val ∧ (i 0).val < (i 0).val / 2000 * 2000 + 2000; omega
  | ⟨1, _⟩ =>
    show win4_3.index ⟨(i 0).val / 2000, hN⟩ (1 : Fin 2) * 32 ≤ (i 1).val ∧ (i 1).val < win4_3.index ⟨(i 0).val / 2000, hN⟩ (1 : Fin 2) * 32 + 32
    rw [e7]; omega

/-- After the region the result array is the product of the arrays the region was entered with, the bias added to
    every row, capped below by zero. -/
theorem arr (c : Dev nD) : (dat4 V c).arrAt 3 cfg4.N = denseRelu (xarr V c) (warr V c) (barr V c) :=
  (dat4 V c).arrAt_eq_of_cover 3 _ (fun t _ => flushed_eq V c t) cover

end Cert.KernelIdeal.Region4

end
-- ==== Proof.Region5.lean ====
/-
  The second product-with-bias region, as one function of the arrays it is entered with.

  The grid has 25 points. At point `t` the body reads rows `2000 t … 2000 t + 1999` of the `[50000, 32]` array, the whole
  `[32, 3]` array and the whole `[1, 3]` bias row, and writes rows `2000 t …` of the `[50000, 3]` result: entry
  `(p, q)` of its block is `Σₖ x (2000 t + p, k) · w (k, q) + b (0, q)`. Row `r` of the result
  lies in the block of point `r / 2000`, so the blocks cover the result, and after the region the result array is the
  product with the bias added to every row.
-/
import proofs.«165420_j63488206570136_1_alg».proof.Proof.Gen.KernelIdeal.Frame
import proofs.«165420_j63488206570136_1_alg».proof.Proof.Payloads
import proofs.«165420_j63488206570136_1_alg».proof.Proof.Spec

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec Cert.KernelIdeal.Payloads
open scoped BigOperators

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The `[50000, 32]` array, the `[32, 3]` array and the `[1, 3]` row the region is entered with. -/
abbrev xarr (c : Dev nD) : Vec Ideal S50000x32 .bf16 := V c (Pipeline.arrRef spec5 0)
abbrev warr (c : Dev nD) : Vec Ideal S32x3 .bf16 := V c (Pipeline.arrRef spec5 1)
abbrev barr (c : Dev nD) : Vec Ideal S1x3 .f32 := V c (Pipeline.arrRef spec5 2)

/-- The three blocks the body reads at point `t`, at their literal types. -/
abbrev xblk (c : Dev nD) (t : Fin cfg5.N) : Vec Ideal S2000x32 .bf16 := iblk5 V c 0 t
abbrev wblk (c : Dev nD) (t : Fin cfg5.N) : Vec Ideal S32x3 .bf16 := iblk5 V c 1 t
abbrev bblk (c : Dev nD) (t : Fin cfg5.N) : Vec Ideal S1x3 .f32 := iblk5 V c 2 t

/-- The index maps over the grid: the first window and the result's move with the point along axis 0, the other two
    windows stay at block `(0, 0)`. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

theorem tlt (t : Fin cfg5.N) : t.val < 25 := N_5 ▸ t.isLt

/-- Where the result's block at point `t` puts its entry `(p, q)`: row `2000 t + p`, column `q`. -/
theorem emb_out (t : Fin cfg5.N) (p : Fin 2000) (q : Fin 3) :
    ((cfg5.win 3).blk t).view.emb (ix2 p q) = ix2 (⟨t.val * 2000 + p.val, by have := tlt t; omega⟩ : Fin 50000) q := by
  obtain ⟨e0, e1, e2, e3, e4, e5, e6, e7⟩ := idx_facts t
  funext a; apply Fin.ext
  match a with
  | ⟨0, _⟩ => show win5_3.index t (0 : Fin 2) * 2000 + 1 * p.val = t.val * 2000 + p.val; omega
  | ⟨1, _⟩ => show win5_3.index t (1 : Fin 2) * 3 + 1 * q.val = q.val; omega

/-- The first window's block at point `t` holds rows `2000 t …` of its array. -/
theorem emb_x (t : Fin cfg5.N) (p : Fin 2000) (k : Fin 32) :
    ((cfg5.win 0).blk t).view.emb (ix2 p k) = ix2 (⟨t.val * 2000 + p.val, by have := tlt t; omega⟩ : Fin 50000) k := by
  obtain ⟨e0, e1, e2, e3, e4, e5, e6, e7⟩ := idx_facts t
  funext a; apply Fin.ext
  match a with
  | ⟨0, _⟩ => show win5_0.index t (0 : Fin 2) * 2000 + 1 * p.val = t.val * 2000 + p.val; omega
  | ⟨1, _⟩ => show win5_0.index t (1 : Fin 2) * 32 + 1 * k.val = k.val; omega

/-- The second window's block is its whole array at every point. -/
theorem emb_w (t : Fin cfg5.N) (k : Fin 32) (q : Fin 3) :
    ((cfg5.win 1).blk t).view.emb (ix2 k q) = ix2 k q := by
  obtain ⟨e0, e1, e2, e3, e4, e5, e6, e7⟩ := idx_facts t
  funext a; apply Fin.ext
  match a with
  | ⟨0, _⟩ => show win5_1.index t (0 : Fin 2) * 32 + 1 * k.val = k.val; omega
  | ⟨1, _⟩ => show win5_1.index t (1 : Fin 2) * 3 + 1 * q.val = q.val; omega

/-- The bias window's block is its whole row at every point. -/
theorem emb_b (t : Fin cfg5.N) (u : Fin 1) (q : Fin 3) :
    ((cfg5.win 2).blk t).view.emb (ix2 u q) = ix2 u q := by
  obtain ⟨e0, e1, e2, e3, e4, e5, e6, e7⟩ := idx_facts t
  funext a; apply Fin.ext
  match a with
  | ⟨0, _⟩ => show win5_2.index t (0 : Fin 2) * 1 + 1 * u.val = u.val; omega
  | ⟨1, _⟩ => show win5_2.index t (1 : Fin 2) * 3 + 1 * q.val = q.val; omega

/-- What point `t` writes back is block `t` of the product of the whole arrays with the bias added. -/
theorem flushed_eq (c : Dev nD) (t : Fin cfg5.N) :
    (dat5 V c).flushed 3 t = ((cfg5.win 3).blk t).view.read (Elt Ideal) (dense (xarr V c) (warr V c) (barr V c)) := by
  show (cfg5.win 3).cut (grid5.coords t) ((dat5 V c).after 3 t) = _
  rw [after5_3]
  unfold out5_3
  rw [View.canon_unit_zero hz]
  simp only [View.ld_unit_zero (S := S2000x32) hz, View.ld_unit_zero (S := S32x3) hz, View.ld_unit_zero (S := S1x3) hz]
  funext j
  show k5_pay1 (xblk V c t) (wblk V c t) (bblk V c t) j
    = dense (xarr V c) (warr V c) (barr V c) (((cfg5.win 3).blk t).view.emb j)
  obtain ⟨p, q, rfl⟩ : ∃ (p : Fin 2000) (q : Fin 3), j = ix2 p q := ⟨j 0, j 1, eq_ix2 j⟩
  refine (pay5_apply (xblk V c t) (wblk V c t) (bblk V c t) p q).trans ?_
  rw [emb_out, dense_apply]
  have hx : ∀ k : Fin 32, xblk V c t (ix2 p k)
      = xarr V c (ix2 (⟨t.val * 2000 + p.val, by have := tlt t; omega⟩ : Fin 50000) k) :=
    fun k => congrArg (xarr V c) (emb_x t p k)
  have hw : ∀ k : Fin 32, wblk V c t (ix2 k q) = warr V c (ix2 k q) := fun k => congrArg (warr V c) (emb_w t k q)
  have hb : bblk V c t (ix2 (0 : Fin 1) q) = barr V c (ix2 (0 : Fin 1) q) := congrArg (barr V c) (emb_b t 0 q)
  simp only [hx, hw, hb]

/-- An index of the result array is in point `t`'s block iff each coordinate is in the block's range on its axis. -/
theorem mem_blk (t : Fin cfg5.N) (i : S50000x3.Idx) :
    i ∈ ((cfg5.win 3).blk t).view.set ↔ ∀ a : Fin 2, win5_3.index t a * S2000x3.size a ≤ (i a).val ∧ (i a).val < win5_3.index t a * S2000x3.size a + S2000x3.size a := by
  show i ∈ ((View.whole main_v76).slice (win5_3.rect t)).set ↔ _
  rw [View.set_slice_whole, Rect.mem_set_unit]
  exact Iff.rfl

/-- Row `r` of the result lies in the block of point `r / 2000`. -/
theorem cover (i : S50000x3.Idx) : ∃ t : Fin cfg5.N, (cfg5.win 3).flush t = true ∧ i ∈ ((cfg5.win 3).blk t).view.set := by
  have hi0 : (i 0).val < 50000 := (i 0).isLt
  have hi1 : (i 1).val < 3 := (i 1).isLt
  have hN : (i 0).val / 2000 < cfg5.N := by rw [show cfg5.N = 25 from N_5]; omega
  refine ⟨⟨(i 0).val / 2000, hN⟩, flush5_3 _, ?_⟩
  rw [mem_blk]
  obtain ⟨e0, e1, e2, e3, e4, e5, e6, e7⟩ := idx_facts ⟨(i 0).val / 2000, hN⟩
  intro a
  match a with
  | ⟨0, _⟩ =>
    show win5_3.index ⟨(i 0).val / 2000, hN⟩ (0 : Fin 2) * 2000 ≤ (i 0).val ∧ (i 0).val < win5_3.index ⟨(i 0).val / 2000, hN⟩ (0 : Fin 2) * 2000 + 2000
    rw [e6]; show (i 0).val / 2000 * 2000 ≤ (i 0).val ∧ (i 0).val < (i 0).val / 2000 * 2000 + 2000; omega
  | ⟨1, _⟩ =>
    show win5_3.index ⟨(i 0).val / 2000, hN⟩ (1 : Fin 2) * 3 ≤ (i 1).val ∧ (i 1).val < win5_3.index ⟨(i 0).val / 2000, hN⟩ (1 : Fin 2) * 3 + 3
    rw [e7]; omega

/-- After the region the result array is the product of the arrays the region was entered with, the bias added to
    every row. -/
theorem arr (c : Dev nD) : (dat5 V c).arrAt 3 cfg5.N = dense (xarr V c) (warr V c) (barr V c) :=
  (dat5 V c).arrAt_eq_of_cover 3 _ (fun t _ => flushed_eq V c t) cover

end Cert.KernelIdeal.Region5

end
-- ==== Proof.HostKeep.lean ====
/-
  Which buffers each stretch of host operations writes, and what therefore survives from one boundary of the program
  to a later one: a buffer no operation of a stretch writes, and no region in between has among its arrays, holds at
  the later boundary what it held at the earlier one.
-/
import proofs.«165420_j63488206570136_1_alg».proof.Proof.Gen.KernelIdeal.Frame

set_option maxRecDepth 16384

noncomputable section

namespace Cert.KernelIdeal.HostKeep

open Idealize.ShloMosaic Idealize.ShloMosaic.TcCoe Idealize.SL.Sem
open Cert.KernelIdeal Cert.KernelIdeal.Gen

variable {F : FTy → Type} [FloatOps F]

/-- The buffers the operations of stretch `hostOps0` write. -/
abbrev written0 : List (Ref sig .tc) := [main_v0, main_v1, main_v2, main_v3, main_v4, main_v5, main_v6, main_v7, main_cst, main_v8, main_v9, main_cst_0, main_v10, main_v11, main_v12, main_cst_1, main_v13, main_v14, main_v15, main_cst_2]
theorem writes0 : (hostOps0 : List (HloOp τ sig (Elt F))).Forall fun op => op.writes ⊆ (written0.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write keeps its contents across it. -/
theorem keep0 (V : Valuation τ sig (Elt F)) (r : Ref sig .tc) (h : r ∉ written0 := by decide) :
    StableHlo.after hostOps0 V (Proc.devRef .tc r) = V (Proc.devRef .tc r) :=
  StableHlo.after_of_writes_sub hostOps0 V writes0 h

/-- The buffers the operations of stretch `hostOps1` write. -/
abbrev written1 : List (Ref sig .tc) := [main_c_6, main_v36, main_v37, main_c_7, main_v38, main_v39, main_v40, main_v41, main_v42, main_v43, main_v44, main_v45, main_cst_8, main_v46, main_v47, main_v48, main_v49]
theorem writes1 : (hostOps1 : List (HloOp τ sig (Elt F))).Forall fun op => op.writes ⊆ (written1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write keeps its contents across it. -/
theorem keep1 (V : Valuation τ sig (Elt F)) (r : Ref sig .tc) (h : r ∉ written1 := by decide) :
    StableHlo.after hostOps1 V (Proc.devRef .tc r) = V (Proc.devRef .tc r) :=
  StableHlo.after_of_writes_sub hostOps1 V writes1 h

/-- The buffers the operations of stretch `hostOps2` write. -/
abbrev written2 : List (Ref sig .tc) := [main_v51, main_v52]
theorem writes2 : (hostOps2 : List (HloOp τ sig (Elt F))).Forall fun op => op.writes ⊆ (written2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write keeps its contents across it. -/
theorem keep2 (V : Valuation τ sig (Elt F)) (r : Ref sig .tc) (h : r ∉ written2 := by decide) :
    StableHlo.after hostOps2 V (Proc.devRef .tc r) = V (Proc.devRef .tc r) :=
  StableHlo.after_of_writes_sub hostOps2 V writes2 h

/-- The buffers the operations of stretch `hostOps3` write. -/
abbrev written3 : List (Ref sig .tc) := [main_c_9, main_v54, main_v55, main_c_10, main_v56, main_v57, main_v58, main_v59, main_v60, main_v61, main_v62, main_v63, main_cst_11, main_v64, main_v65, main_v66, main_v67]
theorem writes3 : (hostOps3 : List (HloOp τ sig (Elt F))).Forall fun op => op.writes ⊆ (written3.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write keeps its contents across it. -/
theorem keep3 (V : Valuation τ sig (Elt F)) (r : Ref sig .tc) (h : r ∉ written3 := by decide) :
    StableHlo.after hostOps3 V (Proc.devRef .tc r) = V (Proc.devRef .tc r) :=
  StableHlo.after_of_writes_sub hostOps3 V writes3 h

/-- The buffers the operations of stretch `hostOps4` write. -/
abbrev written4 : List (Ref sig .tc) := [main_v69, main_v70, main_v71]
theorem writes4 : (hostOps4 : List (HloOp τ sig (Elt F))).Forall fun op => op.writes ⊆ (written4.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write keeps its contents across it. -/
theorem keep4 (V : Valuation τ sig (Elt F)) (r : Ref sig .tc) (h : r ∉ written4 := by decide) :
    StableHlo.after hostOps4 V (Proc.devRef .tc r) = V (Proc.devRef .tc r) :=
  StableHlo.after_of_writes_sub hostOps4 V writes4 h

/-- The buffers the operations of stretch `hostOps5` write. -/
abbrev written5 : List (Ref sig .tc) := [main_v73, main_v74, main_v75]
theorem writes5 : (hostOps5 : List (HloOp τ sig (Elt F))).Forall fun op => op.writes ⊆ (written5.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write keeps its contents across it. -/
theorem keep5 (V : Valuation τ sig (Elt F)) (r : Ref sig .tc) (h : r ∉ written5 := by decide) :
    StableHlo.after hostOps5 V (Proc.devRef .tc r) = V (Proc.devRef .tc r) :=
  StableHlo.after_of_writes_sub hostOps5 V writes5 h

/-- The buffers the operations of stretch `hostOps0_1` write. -/
abbrev written0_1 : List (Ref sig .tc) := [main_call0_v0, main_call0_v1, main_v16]
theorem writes0_1 : (hostOps0_1 : List (HloOp τ sig (Elt F))).Forall fun op => op.writes ⊆ (written0_1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write keeps its contents across it. -/
theorem keep0_1 (V : Valuation τ sig (Elt F)) (r : Ref sig .tc) (h : r ∉ written0_1 := by decide) :
    StableHlo.after hostOps0_1 V (Proc.devRef .tc r) = V (Proc.devRef .tc r) :=
  StableHlo.after_of_writes_sub hostOps0_1 V writes0_1 h

/-- The buffers the operations of stretch `hostOps0_2` write. -/
abbrev written0_2 : List (Ref sig .tc) := [main_c, main_v17, main_v18, main_c_3, main_v19, main_v20, main_v21, main_v22, main_v23, main_v24, main_c_4, main_v25, main_v26, main_c_5, main_v27, main_v28, main_v29, main_v30, main_v31, main_v32, main_v33, main_v34]
theorem writes0_2 : (hostOps0_2 : List (HloOp τ sig (Elt F))).Forall fun op => op.writes ⊆ (written0_2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write keeps its contents across it. -/
theorem keep0_2 (V : Valuation τ sig (Elt F)) (r : Ref sig .tc) (h : r ∉ written0_2 := by decide) :
    StableHlo.after hostOps0_2 V (Proc.devRef .tc r) = V (Proc.devRef .tc r) :=
  StableHlo.after_of_writes_sub hostOps0_2 V writes0_2 h

variable (m : (ℓ : Loc nD τ sig) → Buf (Elt F) ℓ) (ρ : Dev nD → PrngReg) (c : Dev nD)

/-! ## Kept from the launch -/

/-- A buffer nothing writes before the first region holds, at that region's entry, what it held at launch. -/
theorem W3_launch (r : Ref sig .tc) (h0 : r ∉ written0 := by decide) (h01 : r ∉ written0_1 := by decide)
    (h02 : r ∉ written0_2 := by decide) : W3 m ρ c (Proc.devRef .tc r) = m ((c : Thread nD τ).loc r) :=
  (keep0_2 _ r h02).trans ((keep0_1 _ r h01).trans (keep0 _ r h0))

/-! ## Kept from one boundary to the next -/

/-- A buffer that is not one of region 0's arrays holds after the region what it held at its entry. -/
theorem W4_keep (r : Ref sig .tc) (h : ∀ w, Pipeline.arrRef spec0 w ≠ r := by decide) :
    W4 m ρ c (Proc.devRef .tc r) = W3 m ρ c (Proc.devRef .tc r) := W4_of_ne m ρ c r h

/-- A buffer that is not one of region 1's arrays holds after the region what it held at its entry. -/
theorem W6_keep (r : Ref sig .tc) (h : ∀ w, Pipeline.arrRef spec1 w ≠ r := by decide) :
    W6 m ρ c (Proc.devRef .tc r) = W5 m ρ c (Proc.devRef .tc r) := W6_of_ne m ρ c r h

/-- A buffer that is not one of region 2's arrays holds after the region what it held at its entry. -/
theorem W8_keep (r : Ref sig .tc) (h : ∀ w, Pipeline.arrRef spec2 w ≠ r := by decide) :
    W8 m ρ c (Proc.devRef .tc r) = W7 m ρ c (Proc.devRef .tc r) := W8_of_ne m ρ c r h

/-- A buffer that is not one of region 3's arrays holds after the region what it held at its entry. -/
theorem W10_keep (r : Ref sig .tc) (h : ∀ w, Pipeline.arrRef spec3 w ≠ r := by decide) :
    W10 m ρ c (Proc.devRef .tc r) = W9 m ρ c (Proc.devRef .tc r) := W10_of_ne m ρ c r h

/-- A buffer that is not one of region 4's arrays holds after the region what it held at its entry. -/
theorem W12_keep (r : Ref sig .tc) (h : ∀ w, Pipeline.arrRef spec4 w ≠ r := by decide) :
    W12 m ρ c (Proc.devRef .tc r) = W11 m ρ c (Proc.devRef .tc r) := W12_of_ne m ρ c r h

/-- A buffer stretch `hostOps1` does not write holds after it what it held before. -/
theorem W5_keep (r : Ref sig .tc) (h : r ∉ written1 := by decide) :
    W5 m ρ c (Proc.devRef .tc r) = W4 m ρ c (Proc.devRef .tc r) := keep1 _ r h

/-- A buffer stretch `hostOps2` does not write holds after it what it held before. -/
theorem W7_keep (r : Ref sig .tc) (h : r ∉ written2 := by decide) :
    W7 m ρ c (Proc.devRef .tc r) = W6 m ρ c (Proc.devRef .tc r) := keep2 _ r h

/-- A buffer stretch `hostOps3` does not write holds after it what it held before. -/
theorem W9_keep (r : Ref sig .tc) (h : r ∉ written3 := by decide) :
    W9 m ρ c (Proc.devRef .tc r) = W8 m ρ c (Proc.devRef .tc r) := keep3 _ r h

/-- A buffer stretch `hostOps4` does not write holds after it what it held before. -/
theorem W11_keep (r : Ref sig .tc) (h : r ∉ written4 := by decide) :
    W11 m ρ c (Proc.devRef .tc r) = W10 m ρ c (Proc.devRef .tc r) := keep4 _ r h

/-- A buffer stretch `hostOps5` does not write holds after it what it held before. -/
theorem W13_keep (r : Ref sig .tc) (h : r ∉ written5 := by decide) :
    W13 m ρ c (Proc.devRef .tc r) = W12 m ρ c (Proc.devRef .tc r) := keep5 _ r h

/-! ## Kept from the launch to a later boundary -/

/-- A buffer nothing writes before the inlined call's stretch ends holds there what it held at launch. -/
theorem W2_launch (r : Ref sig .tc) (h0 : r ∉ written0 := by decide) (h01 : r ∉ written0_1 := by decide) :
    W2 m ρ c (Proc.devRef .tc r) = m ((c : Thread nD τ).loc r) :=
  (keep0_1 _ r h01).trans (keep0 _ r h0)

/-- A buffer nothing writes up to the first region's exit holds there what it held at launch. -/
theorem W4_launch (r : Ref sig .tc) (h0 : r ∉ written0 := by decide) (h01 : r ∉ written0_1 := by decide) (h02 : r ∉ written0_2 := by decide) (n0 : ∀ w, Pipeline.arrRef spec0 w ≠ r := by decide) :
    W4 m ρ c (Proc.devRef .tc r) = m ((c : Thread nD τ).loc r) :=
  (W4_keep m ρ c r n0).trans (W3_launch m ρ c r h0 h01 h02)

/-- A buffer nothing writes up to region 1's exit holds there what it held at launch. -/
theorem W6_launch (r : Ref sig .tc) (h0 : r ∉ written0 := by decide) (h01 : r ∉ written0_1 := by decide) (h02 : r ∉ written0_2 := by decide) (n0 : ∀ w, Pipeline.arrRef spec0 w ≠ r := by decide) (h1 : r ∉ written1 := by decide) (n1 : ∀ w, Pipeline.arrRef spec1 w ≠ r := by decide) :
    W6 m ρ c (Proc.devRef .tc r) = m ((c : Thread nD τ).loc r) :=
  (W6_keep m ρ c r n1).trans ((W5_keep m ρ c r h1).trans (W4_launch m ρ c r h0 h01 h02 n0))

/-- A buffer nothing writes up to region 2's exit holds there what it held at launch. -/
theorem W8_launch (r : Ref sig .tc) (h0 : r ∉ written0 := by decide) (h01 : r ∉ written0_1 := by decide) (h02 : r ∉ written0_2 := by decide) (n0 : ∀ w, Pipeline.arrRef spec0 w ≠ r := by decide) (h1 : r ∉ written1 := by decide) (n1 : ∀ w, Pipeline.arrRef spec1 w ≠ r := by decide) (h2 : r ∉ written2 := by decide) (n2 : ∀ w, Pipeline.arrRef spec2 w ≠ r := by decide) :
    W8 m ρ c (Proc.devRef .tc r) = m ((c : Thread nD τ).loc r) :=
  (W8_keep m ρ c r n2).trans ((W7_keep m ρ c r h2).trans (W6_launch m ρ c r h0 h01 h02 n0 h1 n1))

/-- A buffer nothing writes up to region 3's exit holds there what it held at launch. -/
theorem W10_launch (r : Ref sig .tc) (h0 : r ∉ written0 := by decide) (h01 : r ∉ written0_1 := by decide) (h02 : r ∉ written0_2 := by decide) (n0 : ∀ w, Pipeline.arrRef spec0 w ≠ r := by decide) (h1 : r ∉ written1 := by decide) (n1 : ∀ w, Pipeline.arrRef spec1 w ≠ r := by decide) (h2 : r ∉ written2 := by decide) (n2 : ∀ w, Pipeline.arrRef spec2 w ≠ r := by decide) (h3 : r ∉ written3 := by decide) (n3 : ∀ w, Pipeline.arrRef spec3 w ≠ r := by decide) :
    W10 m ρ c (Proc.devRef .tc r) = m ((c : Thread nD τ).loc r) :=
  (W10_keep m ρ c r n3).trans ((W9_keep m ρ c r h3).trans (W8_launch m ρ c r h0 h01 h02 n0 h1 n1 h2 n2))

/-- A buffer nothing writes up to region 4's exit holds there what it held at launch. -/
theorem W12_launch (r : Ref sig .tc) (h0 : r ∉ written0 := by decide) (h01 : r ∉ written0_1 := by decide) (h02 : r ∉ written0_2 := by decide) (n0 : ∀ w, Pipeline.arrRef spec0 w ≠ r := by decide) (h1 : r ∉ written1 := by decide) (n1 : ∀ w, Pipeline.arrRef spec1 w ≠ r := by decide) (h2 : r ∉ written2 := by decide) (n2 : ∀ w, Pipeline.arrRef spec2 w ≠ r := by decide) (h3 : r ∉ written3 := by decide) (n3 : ∀ w, Pipeline.arrRef spec3 w ≠ r := by decide) (h4 : r ∉ written4 := by decide) (n4 : ∀ w, Pipeline.arrRef spec4 w ≠ r := by decide) :
    W12 m ρ c (Proc.devRef .tc r) = m ((c : Thread nD τ).loc r) :=
  (W12_keep m ρ c r n4).trans ((W11_keep m ρ c r h4).trans (W10_launch m ρ c r h0 h01 h02 n0 h1 n1 h2 n2 h3 n3))

end Cert.KernelIdeal.HostKeep

end
-- ==== Proof.RefStages.lean ====
/-
  The reference's result, one layer at a time.

  The reference computes, from the arguments `x0 … x10`: the edge lists and the edge weights (operations shared word
  for word with the kernel's program, kept folded here); then twice a product, a gather of its rows along the edges scaled
  by the weights and added into the rows the edges point to (`aggOf`), a bias row and a cap below by zero; then a
  product with bias capped below by zero, and a last product with bias. Each layer of the reference is the layer function
  of `Spec` applied to the layer before: a host product is the sum over the contracted axis; a `[n]` bias broadcast to
  `[1, n]` and then to `[M, n]` reads its entry at the column, as the `[n] → [1, n]` cast read at row `0` does.
-/
import proofs.«165420_j63488206570136_1_alg».proof.Proof.Gen.ReferenceIdeal.Run
import proofs.«165420_j63488206570136_1_alg».proof.Proof.Gen.ReferenceIdeal.Read
import proofs.«165420_j63488206570136_1_alg».proof.Proof.Spec
import Idealize.ShloMosaic.Lib.ValueLayout

noncomputable section

namespace Cert.RefStages

open Idealize.ShloMosaic Idealize.ShloMosaic.ValueIdx Cert.ReferenceIdeal Cert.ReferenceIdeal.Gen Cert.ReferenceIdeal.Read Cert.Spec
open scoped BigOperators

/-- The inverse root of each node's degree where the degree is positive (`pos`), the given constant elsewhere. -/
def dinvOf (pos : IVec S50000 1) (rs : FVec Ideal S50000 .f32) (z : FVec Ideal S_ .f32) : FVec Ideal S50000 .f32 :=
  select pos rs (broadcastInDim S50000 ![] bcast_S_S50000 (id z))

/-- The reference's inverse roots are `dinvOf` of its degree test, its inverse roots of the degrees and its zero. -/
theorem v16_eq (x1 : (⟨S2x800000, .i32⟩ : BufTy).Contents (Elt Ideal)) (x2 : (⟨S800000x1, .f32⟩ : BufTy).Contents (Elt Ideal)) :
    val_main_v16 (F := Ideal) x1 x2
      = dinvOf (val_main_v14 (F := Ideal) x1 x2) (val_main_v15 (F := Ideal) x1 x2) (val_main_cst_2 (F := Ideal)) := rfl

/-- The weight of each edge: the inverse root at its source, times the edge's value, times the inverse root at its
    target (an index below zero counted from the end, as the host reads it). -/
def normOf (dinv : FVec Ideal S50000 .f32) (src dst : IVec S850000 32) (ew : FVec Ideal S850000 .f32) :
    FVec Ideal S850000 .f32 :=
  mulf (F := Ideal)
    (mulf (F := Ideal)
      (Host.gather gather_S50000_S850000x1_S850000_n_0_n_n_0_1_1 dinv
        (broadcastInDim S850000x1 ![0] bcast_S850000_S850000x1_0
          (select (cmpi .slt src (broadcastInDim S850000 ![] bcast_S_S850000 (constantI S_ 32 0#32)))
            (addi src (broadcastInDim S850000 ![] bcast_S_S850000 (constantI S_ 32 50000#32))) src)))
      ew)
    (Host.gather gather_S50000_S850000x1_S850000_n_0_n_n_0_1_1 dinv
      (broadcastInDim S850000x1 ![0] bcast_S850000_S850000x1_0
        (select (cmpi .slt dst (broadcastInDim S850000 ![] bcast_S_S850000 (constantI S_ 32 0#32)))
          (addi dst (broadcastInDim S850000 ![] bcast_S_S850000 (constantI S_ 32 50000#32))) dst)))

/-- The reference's edge weights are `normOf` of its inverse roots, its two edge lists and its edge values. -/
theorem v32_eq (x1 : (⟨S2x800000, .i32⟩ : BufTy).Contents (Elt Ideal)) (x2 : (⟨S800000x1, .f32⟩ : BufTy).Contents (Elt Ideal)) :
    val_main_v32 (F := Ideal) x1 x2
      = normOf (val_main_v16 (F := Ideal) x1 x2) (val_main_v6 (F := Ideal) x1) (val_main_v7 (F := Ideal) x1) (val_main_v9 (F := Ideal) x2) := rfl

/-- One message pass over the edges: row `src e` of `z` (a negative index counted from the end, as the host reads it),
    scaled by `nrm e`, added into row `dst e` of an array of zeros. -/
def aggOf (z : FVec Ideal S50000x64 .f32) (src dst : IVec S850000 32) (nrm : FVec Ideal S850000 .f32) :
    FVec Ideal S50000x64 .f32 :=
  Host.scatterAdd (F := Ideal) scatter_S50000x64_S850000x1_S850000x64_1_0_0_1
    (broadcastInDim S50000x64 ![] bcast_S_S50000x64 (constant (F := Ideal) S_ .f32 0x00000000#32))
    (broadcastInDim S850000x1 ![0] bcast_S850000_S850000x1_0 dst)
    (mulf (F := Ideal) (Host.gather gather_S50000x64_S850000x1_S850000x64_1_0_n_n_0_1_164 z
        (broadcastInDim S850000x1 ![0] bcast_S850000_S850000x1_0
          (select (cmpi .slt src (broadcastInDim S850000 ![] bcast_S_S850000 (constantI S_ 32 0#32)))
            (addi src (broadcastInDim S850000 ![] bcast_S_S850000 (constantI S_ 32 50000#32))) src)))
      (broadcastInDim S850000x64 ![0, 1] bcast_S850000x1_S850000x64_0_1
        (broadcastInDim S850000x1 ![0] bcast_S850000_S850000x1_0 nrm)))

/-- The reference's first message pass is `aggOf` of its first product, its edge lists and its edge weights. -/
theorem v46_eq (x0 : (⟨S50000x128, .f32⟩ : BufTy).Contents (Elt Ideal)) (x1 : (⟨S2x800000, .i32⟩ : BufTy).Contents (Elt Ideal)) (x2 : (⟨S800000x1, .f32⟩ : BufTy).Contents (Elt Ideal)) (x3 : (⟨S128x64, .f32⟩ : BufTy).Contents (Elt Ideal)) :
    val_main_v46 (F := Ideal) x0 x1 x2 x3
      = aggOf (val_main_v33 (F := Ideal) x0 x3) (val_main_v6 (F := Ideal) x1) (val_main_v7 (F := Ideal) x1) (val_main_v32 (F := Ideal) x1 x2) := rfl

/-- The reference's second message pass is `aggOf` of its second product, the same edge lists and edge weights. -/
theorem v64_eq (x0 : (⟨S50000x128, .f32⟩ : BufTy).Contents (Elt Ideal)) (x1 : (⟨S2x800000, .i32⟩ : BufTy).Contents (Elt Ideal)) (x2 : (⟨S800000x1, .f32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) :
    val_main_v64 (F := Ideal) x0 x1 x2 x3 x4 x5
      = aggOf (val_main_v51 (F := Ideal) x0 x1 x2 x3 x4 x5) (val_main_v6 (F := Ideal) x1) (val_main_v7 (F := Ideal) x1) (val_main_v32 (F := Ideal) x1 x2) := rfl

/-! ## Each layer of the reference is the layer function of the layer before -/

theorem v33_eq (x0 : (⟨S50000x128, .f32⟩ : BufTy).Contents (Elt Ideal)) (x3 : (⟨S128x64, .f32⟩ : BufTy).Contents (Elt Ideal)) :
    val_main_v33 (F := Ideal) x0 x3 = matProd x0 x3 := by
  funext i
  obtain ⟨p, q, rfl⟩ : ∃ (p : Fin 50000) (q : Fin 64), i = ix2 p q := ⟨i 0, i 1, eq_ix2 i⟩
  rw [val_main_v33_apply, matProd_apply]
  refine Finset.sum_congr rfl fun k _ => ?_
  have el : lidx_main_v33 (ix2 p q) k = ix2 p k :=
    funext fun a => Fin.ext (by match a with | ⟨0, _⟩ => rfl | ⟨1, _⟩ => rfl)
  have er : ridx_main_v33 (ix2 p q) k = ix2 k q :=
    funext fun a => Fin.ext (by match a with | ⟨0, _⟩ => rfl | ⟨1, _⟩ => rfl)
  rw [el, er]

theorem v50_eq (x0 : (⟨S50000x128, .f32⟩ : BufTy).Contents (Elt Ideal)) (x1 : (⟨S2x800000, .i32⟩ : BufTy).Contents (Elt Ideal)) (x2 : (⟨S800000x1, .f32⟩ : BufTy).Contents (Elt Ideal)) (x3 : (⟨S128x64, .f32⟩ : BufTy).Contents (Elt Ideal)) (x4 : (⟨S64, .f32⟩ : BufTy).Contents (Elt Ideal)) (h : S64.ShapeCasts S1x64) :
    val_main_v50 (F := Ideal) x0 x1 x2 x3 x4 = biasRelu (val_main_v46 (F := Ideal) x0 x1 x2 x3) (shapeCast S1x64 x4 h) := by
  funext i
  obtain ⟨p, q, rfl⟩ : ∃ (p : Fin 50000) (q : Fin 64), i = ix2 p q := ⟨i 0, i 1, eq_ix2 i⟩
  rw [val_main_v50_apply, val_main_v49_apply, val_main_v48_apply, val_main_v47_apply,
    val_main_call1_v0_apply, val_main_call1_cst_apply, biasRelu_apply, shapeCast_a_1a_apply]
  have e : idx_main_v47 (idx_main_v48 (ix2 p q)) = ix1 q :=
    funext fun a => Fin.ext (by match a with | ⟨0, _⟩ => rfl)
  rw [e]
  rfl

theorem v51_eq (x0 : (⟨S50000x128, .f32⟩ : BufTy).Contents (Elt Ideal)) (x1 : (⟨S2x800000, .i32⟩ : BufTy).Contents (Elt Ideal)) (x2 : (⟨S800000x1, .f32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) :
    val_main_v51 (F := Ideal) x0 x1 x2 x3 x4 x5 = matProd (val_main_v50 (F := Ideal) x0 x1 x2 x3 x4) x5 := by
  funext i
  obtain ⟨p, q, rfl⟩ : ∃ (p : Fin 50000) (q : Fin 64), i = ix2 p q := ⟨i 0, i 1, eq_ix2 i⟩
  rw [val_main_v51_apply, matProd_apply]
  refine Finset.sum_congr rfl fun k _ => ?_
  have el : lidx_main_v51 (ix2 p q) k = ix2 p k :=
    funext fun a => Fin.ext (by match a with | ⟨0, _⟩ => rfl | ⟨1, _⟩ => rfl)
  have er : ridx_main_v51 (ix2 p q) k = ix2 k q :=
    funext fun a => Fin.ext (by match a with | ⟨0, _⟩ => rfl | ⟨1, _⟩ => rfl)
  rw [el, er]

theorem v68_eq (x0 : (⟨S50000x128, .f32⟩ : BufTy).Contents (Elt Ideal)) (x1 : (⟨S2x800000, .i32⟩ : BufTy).Contents (Elt Ideal)) (x2 : (⟨S800000x1, .f32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (h : S64.ShapeCasts S1x64) :
    val_main_v68 (F := Ideal) x0 x1 x2 x3 x4 x5 x6 = biasRelu (val_main_v64 (F := Ideal) x0 x1 x2 x3 x4 x5) (shapeCast S1x64 x6 h) := by
  funext i
  obtain ⟨p, q, rfl⟩ : ∃ (p : Fin 50000) (q : Fin 64), i = ix2 p q := ⟨i 0, i 1, eq_ix2 i⟩
  rw [val_main_v68_apply, val_main_v67_apply, val_main_v66_apply, val_main_v65_apply,
    val_main_call2_v0_apply, val_main_call2_cst_apply, biasRelu_apply, shapeCast_a_1a_apply]
  have e : idx_main_v65 (idx_main_v66 (ix2 p q)) = ix1 q :=
    funext fun a => Fin.ext (by match a with | ⟨0, _⟩ => rfl)
  rw [e]
  rfl

theorem v73_eq (x0 : (⟨S50000x128, .f32⟩ : BufTy).Contents (Elt Ideal)) (x1 : (⟨S2x800000, .i32⟩ : BufTy).Contents (Elt Ideal)) (x2 : (⟨S800000x1, .f32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (h : S32.ShapeCasts S1x32) :
    val_main_v73 (F := Ideal) x0 x1 x2 x3 x4 x5 x6 x7 x8 = denseRelu (val_main_v68 (F := Ideal) x0 x1 x2 x3 x4 x5 x6) x7 (shapeCast S1x32 x8 h) := by
  funext i
  obtain ⟨p, q, rfl⟩ : ∃ (p : Fin 50000) (q : Fin 32), i = ix2 p q := ⟨i 0, i 1, eq_ix2 i⟩
  rw [val_main_v73_apply, val_main_v72_apply, val_main_v71_apply, val_main_v70_apply, val_main_v69_apply,
    val_main_call3_v0_apply, val_main_call3_cst_apply, denseRelu_apply, shapeCast_a_1a_apply]
  have e : idx_main_v70 (idx_main_v71 (ix2 p q)) = ix1 q :=
    funext fun a => Fin.ext (by match a with | ⟨0, _⟩ => rfl)
  have el : ∀ k : Fin 64, lidx_main_v69 (ix2 p q) k = ix2 p k := fun k =>
    funext fun a => Fin.ext (by match a with | ⟨0, _⟩ => rfl | ⟨1, _⟩ => rfl)
  have er : ∀ k : Fin 64, ridx_main_v69 (ix2 p q) k = ix2 k q := fun k =>
    funext fun a => Fin.ext (by match a with | ⟨0, _⟩ => rfl | ⟨1, _⟩ => rfl)
  simp only [e, el, er]
  rfl

theorem v77_eq (x0 : (⟨S50000x128, .f32⟩ : BufTy).Contents (Elt Ideal)) (x1 : (⟨S2x800000, .i32⟩ : BufTy).Contents (Elt Ideal)) (x2 : (⟨S800000x1, .f32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x32, .f32⟩ : BufTy).Contents (Elt Ideal)) (x8 : (⟨S32, .f32⟩ : BufTy).Contents (Elt Ideal)) (x9 : (⟨S32x3, .f32⟩ : BufTy).Contents (Elt Ideal)) (x10 : (⟨S3, .f32⟩ : BufTy).Contents (Elt Ideal)) (h : S3.ShapeCasts S1x3) :
    val_main_v77 (F := Ideal) x0 x1 x2 x3 x4 x5 x6 x7 x8 x9 x10 = dense (val_main_v73 (F := Ideal) x0 x1 x2 x3 x4 x5 x6 x7 x8) x9 (shapeCast S1x3 x10 h) := by
  funext i
  obtain ⟨p, q, rfl⟩ : ∃ (p : Fin 50000) (q : Fin 3), i = ix2 p q := ⟨i 0, i 1, eq_ix2 i⟩
  rw [val_main_v77_apply, val_main_v76_apply, val_main_v75_apply, val_main_v74_apply,
    dense_apply, shapeCast_a_1a_apply]
  have e : idx_main_v75 (idx_main_v76 (ix2 p q)) = ix1 q :=
    funext fun a => Fin.ext (by match a with | ⟨0, _⟩ => rfl)
  have el : ∀ k : Fin 32, lidx_main_v74 (ix2 p q) k = ix2 p k := fun k =>
    funext fun a => Fin.ext (by match a with | ⟨0, _⟩ => rfl | ⟨1, _⟩ => rfl)
  have er : ∀ k : Fin 32, ridx_main_v74 (ix2 p q) k = ix2 k q := fun k =>
    funext fun a => Fin.ext (by match a with | ⟨0, _⟩ => rfl | ⟨1, _⟩ => rfl)
  simp only [e, el, er]
  rfl

end Cert.RefStages

end
-- ==== Proof.HostReads.lean ====
/-
  What each stretch of host operations computes, as a function of the buffers it is entered with.

  Over any contents `V` of the buffers at a stretch's entry: the stretches before the first region compute the edge
  lists, the edge values with the self-loops' ones joined on, the degrees with their comparison and inverse root, and from
  those the edge weights — the reference's own stages of the two edge arguments; the stretch after each product region is
  one message pass (`aggOf`) of that region's result along the same edge lists and weights, and a bias cast to a row; the
  remaining stretches only change float format (the identity at the extended reals) and cast a bias to a row.
-/
import proofs.«165420_j63488206570136_1_alg».proof.Proof.Gen.KernelIdeal.Frame
import proofs.«165420_j63488206570136_1_alg».proof.Proof.RefStages

set_option maxRecDepth 16384

noncomputable section

namespace Cert.KernelIdeal.HostReads

open Idealize.ShloMosaic Idealize.ShloMosaic.TcCoe Idealize.SL.Sem Idealize.ShloMosaic.StableHlo
open Cert.KernelIdeal Cert.KernelIdeal.Gen
open Cert.ReferenceIdeal.Read (val_main_v6 val_main_v7 val_main_v9 val_main_v14 val_main_v15 val_main_cst_2 val_main_v16 val_main_v32)
open Cert.RefStages (aggOf dinvOf normOf)

variable (V : Valuation τ sig (Elt Ideal))

/-! ## Before the first region -/

theorem s0_v6 : StableHlo.after hostOps0 V (Proc.devRef .tc main_v6) = val_main_v6 (F := Ideal) (V (Proc.devRef .tc main_arg1)) := by
  after_results <;> rfl

theorem s0_v7 : StableHlo.after hostOps0 V (Proc.devRef .tc main_v7) = val_main_v7 (F := Ideal) (V (Proc.devRef .tc main_arg1)) := by
  after_results <;> rfl

theorem s0_v9 : StableHlo.after hostOps0 V (Proc.devRef .tc main_v9) = val_main_v9 (F := Ideal) (V (Proc.devRef .tc main_arg2)) := by
  after_results <;> rfl

theorem s0_v14 : StableHlo.after hostOps0 V (Proc.devRef .tc main_v14)
    = val_main_v14 (F := Ideal) (V (Proc.devRef .tc main_arg1)) (V (Proc.devRef .tc main_arg2)) := by
  after_results <;> rfl

theorem s0_v15 : StableHlo.after hostOps0 V (Proc.devRef .tc main_v15)
    = val_main_v15 (F := Ideal) (V (Proc.devRef .tc main_arg1)) (V (Proc.devRef .tc main_arg2)) := by
  after_results <;> rfl

theorem s0_cst2 : StableHlo.after hostOps0 V (Proc.devRef .tc main_cst_2) = val_main_cst_2 (F := Ideal) := by
  after_results <;> rfl

/-- The inverse roots of the degrees, the stretch's zero where the degree is not positive. -/
theorem s01_v16 : StableHlo.after hostOps0_1 V (Proc.devRef .tc main_v16)
    = dinvOf (V (Proc.devRef .tc main_v14)) (V (Proc.devRef .tc main_v15)) (V (Proc.devRef .tc main_cst_2)) := by
  after_results <;> rfl

set_option maxHeartbeats 4000000 in
/-- The edge weights: the inverse root at the edge's source, times the edge's value, times the inverse root at its target. -/
theorem s02_v32 : StableHlo.after hostOps0_2 V (Proc.devRef .tc main_v32)
    = normOf (V (Proc.devRef .tc main_v16)) (V (Proc.devRef .tc main_v6)) (V (Proc.devRef .tc main_v7)) (V (Proc.devRef .tc main_v9)) := by
  after_results_simp <;> rfl

theorem s02_v33 : StableHlo.after hostOps0_2 V (Proc.devRef .tc main_v33)
    = (truncf .bf16 (V (Proc.devRef .tc main_arg0) : FVec Ideal S50000x128 .f32) bitsLt_bf16_f32 : FVec Ideal S50000x128 .bf16) := by
  after_results <;> rfl

theorem s02_v34 : StableHlo.after hostOps0_2 V (Proc.devRef .tc main_v34)
    = (truncf .bf16 (V (Proc.devRef .tc main_arg3) : FVec Ideal S128x64 .f32) bitsLt_bf16_f32 : FVec Ideal S128x64 .bf16) := by
  after_results <;> rfl

/-! ## After the first product region -/

set_option maxHeartbeats 4000000 in
theorem s1_v48 : StableHlo.after hostOps1 V (Proc.devRef .tc main_v48)
    = aggOf (V (Proc.devRef .tc main_v35)) (V (Proc.devRef .tc main_v6)) (V (Proc.devRef .tc main_v7)) (V (Proc.devRef .tc main_v32)) := by
  after_results <;> rfl

theorem s1_v49 : StableHlo.after hostOps1 V (Proc.devRef .tc main_v49)
    = (shapeCast S1x64 (V (Proc.devRef .tc main_arg4) : FVec Ideal S64 .f32) shapeCasts_S64_S1x64 : FVec Ideal S1x64 .f32) := by
  after_results <;> rfl

/-! ## After the first bias region -/

theorem s2_v51 : StableHlo.after hostOps2 V (Proc.devRef .tc main_v51)
    = (truncf .bf16 (V (Proc.devRef .tc main_v50) : FVec Ideal S50000x64 .f32) bitsLt_bf16_f32 : FVec Ideal S50000x64 .bf16) := by
  after_results <;> rfl

theorem s2_v52 : StableHlo.after hostOps2 V (Proc.devRef .tc main_v52)
    = (truncf .bf16 (V (Proc.devRef .tc main_arg5) : FVec Ideal S64x64 .f32) bitsLt_bf16_f32 : FVec Ideal S64x64 .bf16) := by
  after_results <;> rfl

/-! ## After the second product region -/

set_option maxHeartbeats 4000000 in
theorem s3_v66 : StableHlo.after hostOps3 V (Proc.devRef .tc main_v66)
    = aggOf (V (Proc.devRef .tc main_v53)) (V (Proc.devRef .tc main_v6)) (V (Proc.devRef .tc main_v7)) (V (Proc.devRef .tc main_v32)) := by
  after_results <;> rfl

theorem s3_v67 : StableHlo.after hostOps3 V (Proc.devRef .tc main_v67)
    = (shapeCast S1x64 (V (Proc.devRef .tc main_arg6) : FVec Ideal S64 .f32) shapeCasts_S64_S1x64 : FVec Ideal S1x64 .f32) := by
  after_results <;> rfl

/-! ## After the second bias region -/

theorem s4_v69 : StableHlo.after hostOps4 V (Proc.devRef .tc main_v69)
    = (truncf .bf16 (V (Proc.devRef .tc main_v68) : FVec Ideal S50000x64 .f32) bitsLt_bf16_f32 : FVec Ideal S50000x64 .bf16) := by
  after_results <;> rfl

theorem s4_v70 : StableHlo.after hostOps4 V (Proc.devRef .tc main_v70)
    = (truncf .bf16 (V (Proc.devRef .tc main_arg7) : FVec Ideal S64x32 .f32) bitsLt_bf16_f32 : FVec Ideal S64x32 .bf16) := by
  after_results <;> rfl

theorem s4_v71 : StableHlo.after hostOps4 V (Proc.devRef .tc main_v71)
    = (shapeCast S1x32 (V (Proc.devRef .tc main_arg8) : FVec Ideal S32 .f32) shapeCasts_S32_S1x32 : FVec Ideal S1x32 .f32) := by
  after_results <;> rfl

/-! ## After the first product-with-bias region -/

theorem s5_v73 : StableHlo.after hostOps5 V (Proc.devRef .tc main_v73)
    = (truncf .bf16 (V (Proc.devRef .tc main_v72) : FVec Ideal S50000x32 .f32) bitsLt_bf16_f32 : FVec Ideal S50000x32 .bf16) := by
  after_results <;> rfl

theorem s5_v74 : StableHlo.after hostOps5 V (Proc.devRef .tc main_v74)
    = (truncf .bf16 (V (Proc.devRef .tc main_arg9) : FVec Ideal S32x3 .f32) bitsLt_bf16_f32 : FVec Ideal S32x3 .bf16) := by
  after_results <;> rfl

theorem s5_v75 : StableHlo.after hostOps5 V (Proc.devRef .tc main_v75)
    = (shapeCast S1x3 (V (Proc.devRef .tc main_arg10) : FVec Ideal S3 .f32) shapeCasts_S3_S1x3 : FVec Ideal S1x3 .f32) := by
  after_results <;> rfl

end Cert.KernelIdeal.HostReads

end
-- ==== Proof.Chain.lean ====
/-
  The kernel program's result, boundary by boundary, is the reference's result of the same arguments.

  Writing `x0 … x10` for the argument arrays at launch: at the first region's entry the program has computed the edge
  lists and the edge weights, the reference's own stages of `x1` and `x2`. Each region then leaves its layer function of
  the arrays it was entered with, each stretch after a product region is one message pass of that region's result, and
  the float format changes in between are the identity; so at each boundary the layer's buffer holds the reference's
  stage of the arguments, and at the last boundary the result buffer holds the reference's result.
-/
import proofs.«165420_j63488206570136_1_alg».proof.Proof.Region0
import proofs.«165420_j63488206570136_1_alg».proof.Proof.Region1
import proofs.«165420_j63488206570136_1_alg».proof.Proof.Region2
import proofs.«165420_j63488206570136_1_alg».proof.Proof.Region3
import proofs.«165420_j63488206570136_1_alg».proof.Proof.Region4
import proofs.«165420_j63488206570136_1_alg».proof.Proof.Region5
import proofs.«165420_j63488206570136_1_alg».proof.Proof.HostKeep
import proofs.«165420_j63488206570136_1_alg».proof.Proof.HostReads
import proofs.«165420_j63488206570136_1_alg».proof.Proof.RefStages

set_option maxRecDepth 16384

noncomputable section

namespace Cert.KernelIdeal.Chain

open Idealize.ShloMosaic Idealize.ShloMosaic.TcCoe Idealize.SL.Sem
open Cert.KernelIdeal Cert.KernelIdeal.Gen Cert.Spec Cert.KernelIdeal.HostKeep Cert.KernelIdeal.HostReads
open Cert.ReferenceIdeal.Read (val_main_v6 val_main_v7 val_main_v9 val_main_v14 val_main_v15 val_main_cst_2 val_main_v16
  val_main_v32 val_main_v33 val_main_v46 val_main_v50 val_main_v51 val_main_v64 val_main_v68 val_main_v73 val_main_v77)
open Cert.RefStages

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)

/-- A change to the narrower float format is the identity at the extended reals. -/
theorem truncf_id {s : Shape} (a : FVec Ideal s .f32) (h : FTy.bits .bf16 < FTy.bits .f32) :
    (truncf .bf16 a h : FVec Ideal s .bf16) = a := rfl

/-! ## Before the first region: the edge lists and the edge weights -/

theorem W1_v6 : W1 m ρ c (Proc.devRef .tc main_v6) = val_main_v6 (F := Ideal) x1 := s0_v6 (W0 m ρ c)
theorem W1_v7 : W1 m ρ c (Proc.devRef .tc main_v7) = val_main_v7 (F := Ideal) x1 := s0_v7 (W0 m ρ c)
theorem W1_v9 : W1 m ρ c (Proc.devRef .tc main_v9) = val_main_v9 (F := Ideal) x2 := s0_v9 (W0 m ρ c)
theorem W1_v14 : W1 m ρ c (Proc.devRef .tc main_v14) = val_main_v14 (F := Ideal) x1 x2 := s0_v14 (W0 m ρ c)
theorem W1_v15 : W1 m ρ c (Proc.devRef .tc main_v15) = val_main_v15 (F := Ideal) x1 x2 := s0_v15 (W0 m ρ c)
theorem W1_cst2 : W1 m ρ c (Proc.devRef .tc main_cst_2) = val_main_cst_2 (F := Ideal) := s0_cst2 (W0 m ρ c)

theorem W2_v16 : W2 m ρ c (Proc.devRef .tc main_v16) = val_main_v16 (F := Ideal) x1 x2 := by
  rw [v16_eq]
  refine (s01_v16 (W1 m ρ c)).trans ?_
  rw [W1_v14 m ρ c, W1_v15 m ρ c, W1_cst2 m ρ c]
theorem W2_v6 : W2 m ρ c (Proc.devRef .tc main_v6) = val_main_v6 (F := Ideal) x1 := (keep0_1 (W1 m ρ c) main_v6).trans (W1_v6 m ρ c)
theorem W2_v7 : W2 m ρ c (Proc.devRef .tc main_v7) = val_main_v7 (F := Ideal) x1 := (keep0_1 (W1 m ρ c) main_v7).trans (W1_v7 m ρ c)
theorem W2_v9 : W2 m ρ c (Proc.devRef .tc main_v9) = val_main_v9 (F := Ideal) x2 := (keep0_1 (W1 m ρ c) main_v9).trans (W1_v9 m ρ c)

theorem W3_v32 : W3 m ρ c (Proc.devRef .tc main_v32) = val_main_v32 (F := Ideal) x1 x2 := by
  rw [v32_eq]
  refine (s02_v32 (W2 m ρ c)).trans ?_
  rw [W2_v16 m ρ c, W2_v6 m ρ c, W2_v7 m ρ c, W2_v9 m ρ c]
theorem W3_v6 : W3 m ρ c (Proc.devRef .tc main_v6) = val_main_v6 (F := Ideal) x1 := (keep0_2 (W2 m ρ c) main_v6).trans (W2_v6 m ρ c)
theorem W3_v7 : W3 m ρ c (Proc.devRef .tc main_v7) = val_main_v7 (F := Ideal) x1 := (keep0_2 (W2 m ρ c) main_v7).trans (W2_v7 m ρ c)
theorem W3_v33 : W3 m ρ c (Proc.devRef .tc main_v33) = x0 :=
  (s02_v33 (W2 m ρ c)).trans ((truncf_id _ _).trans (W2_launch m ρ c main_arg0))
theorem W3_v34 : W3 m ρ c (Proc.devRef .tc main_v34) = x3 :=
  (s02_v34 (W2 m ρ c)).trans ((truncf_id _ _).trans (W2_launch m ρ c main_arg3))

/-! ## The first layer -/

theorem W4_v35 : W4 m ρ c (Proc.devRef .tc main_v35) = val_main_v33 (F := Ideal) x0 x3 := by
  rw [v33_eq]
  refine ((W4_arr m ρ c 2).trans (Region0.arr (V3 m ρ) c)).trans ?_
  show matProd (W3 m ρ c (Proc.devRef .tc main_v33)) (W3 m ρ c (Proc.devRef .tc main_v34)) = _
  rw [W3_v33 m ρ c, W3_v34 m ρ c]
theorem W4_v6 : W4 m ρ c (Proc.devRef .tc main_v6) = val_main_v6 (F := Ideal) x1 := (W4_keep m ρ c main_v6).trans (W3_v6 m ρ c)
theorem W4_v7 : W4 m ρ c (Proc.devRef .tc main_v7) = val_main_v7 (F := Ideal) x1 := (W4_keep m ρ c main_v7).trans (W3_v7 m ρ c)
theorem W4_v32 : W4 m ρ c (Proc.devRef .tc main_v32) = val_main_v32 (F := Ideal) x1 x2 := (W4_keep m ρ c main_v32).trans (W3_v32 m ρ c)

theorem W5_v48 : W5 m ρ c (Proc.devRef .tc main_v48) = val_main_v46 (F := Ideal) x0 x1 x2 x3 := by
  rw [v46_eq]
  refine (s1_v48 (W4 m ρ c)).trans ?_
  rw [W4_v35 m ρ c, W4_v6 m ρ c, W4_v7 m ρ c, W4_v32 m ρ c]
theorem W5_v49 : W5 m ρ c (Proc.devRef .tc main_v49)
    = (shapeCast S1x64 (x4 : FVec Ideal S64 .f32) shapeCasts_S64_S1x64 : FVec Ideal S1x64 .f32) := by
  refine (s1_v49 (W4 m ρ c)).trans ?_
  rw [W4_launch m ρ c main_arg4]

theorem W6_v50 : W6 m ρ c (Proc.devRef .tc main_v50) = val_main_v50 (F := Ideal) x0 x1 x2 x3 x4 := by
  rw [v50_eq _ _ _ _ _ shapeCasts_S64_S1x64]
  refine ((W6_arr m ρ c 2).trans (Region1.arr (V5 m ρ) c)).trans ?_
  show biasRelu (W5 m ρ c (Proc.devRef .tc main_v48)) (W5 m ρ c (Proc.devRef .tc main_v49)) = _
  rw [W5_v48 m ρ c, W5_v49 m ρ c]
theorem W6_v6 : W6 m ρ c (Proc.devRef .tc main_v6) = val_main_v6 (F := Ideal) x1 :=
  (W6_keep m ρ c main_v6).trans ((W5_keep m ρ c main_v6).trans (W4_v6 m ρ c))
theorem W6_v7 : W6 m ρ c (Proc.devRef .tc main_v7) = val_main_v7 (F := Ideal) x1 :=
  (W6_keep m ρ c main_v7).trans ((W5_keep m ρ c main_v7).trans (W4_v7 m ρ c))
theorem W6_v32 : W6 m ρ c (Proc.devRef .tc main_v32) = val_main_v32 (F := Ideal) x1 x2 :=
  (W6_keep m ρ c main_v32).trans ((W5_keep m ρ c main_v32).trans (W4_v32 m ρ c))

/-! ## The second layer -/

theorem W7_v51 : W7 m ρ c (Proc.devRef .tc main_v51) = val_main_v50 (F := Ideal) x0 x1 x2 x3 x4 :=
  (s2_v51 (W6 m ρ c)).trans ((truncf_id _ _).trans (W6_v50 m ρ c))
theorem W7_v52 : W7 m ρ c (Proc.devRef .tc main_v52) = x5 :=
  (s2_v52 (W6 m ρ c)).trans ((truncf_id _ _).trans (W6_launch m ρ c main_arg5))

theorem W8_v53 : W8 m ρ c (Proc.devRef .tc main_v53) = val_main_v51 (F := Ideal) x0 x1 x2 x3 x4 x5 := by
  rw [v51_eq]
  refine ((W8_arr m ρ c 2).trans (Region2.arr (V7 m ρ) c)).trans ?_
  show matProd (W7 m ρ c (Proc.devRef .tc main_v51)) (W7 m ρ c (Proc.devRef .tc main_v52)) = _
  rw [W7_v51 m ρ c, W7_v52 m ρ c]
theorem W8_v6 : W8 m ρ c (Proc.devRef .tc main_v6) = val_main_v6 (F := Ideal) x1 :=
  (W8_keep m ρ c main_v6).trans ((W7_keep m ρ c main_v6).trans (W6_v6 m ρ c))
theorem W8_v7 : W8 m ρ c (Proc.devRef .tc main_v7) = val_main_v7 (F := Ideal) x1 :=
  (W8_keep m ρ c main_v7).trans ((W7_keep m ρ c main_v7).trans (W6_v7 m ρ c))
theorem W8_v32 : W8 m ρ c (Proc.devRef .tc main_v32) = val_main_v32 (F := Ideal) x1 x2 :=
  (W8_keep m ρ c main_v32).trans ((W7_keep m ρ c main_v32).trans (W6_v32 m ρ c))

theorem W9_v66 : W9 m ρ c (Proc.devRef .tc main_v66) = val_main_v64 (F := Ideal) x0 x1 x2 x3 x4 x5 := by
  rw [v64_eq]
  refine (s3_v66 (W8 m ρ c)).trans ?_
  rw [W8_v53 m ρ c, W8_v6 m ρ c, W8_v7 m ρ c, W8_v32 m ρ c]
theorem W9_v67 : W9 m ρ c (Proc.devRef .tc main_v67)
    = (shapeCast S1x64 (x6 : FVec Ideal S64 .f32) shapeCasts_S64_S1x64 : FVec Ideal S1x64 .f32) := by
  refine (s3_v67 (W8 m ρ c)).trans ?_
  rw [W8_launch m ρ c main_arg6]

theorem W10_v68 : W10 m ρ c (Proc.devRef .tc main_v68) = val_main_v68 (F := Ideal) x0 x1 x2 x3 x4 x5 x6 := by
  rw [v68_eq _ _ _ _ _ _ _ shapeCasts_S64_S1x64]
  refine ((W10_arr m ρ c 2).trans (Region3.arr (V9 m ρ) c)).trans ?_
  show biasRelu (W9 m ρ c (Proc.devRef .tc main_v66)) (W9 m ρ c (Proc.devRef .tc main_v67)) = _
  rw [W9_v66 m ρ c, W9_v67 m ρ c]

/-! ## The two last layers -/

theorem W11_v69 : W11 m ρ c (Proc.devRef .tc main_v69) = val_main_v68 (F := Ideal) x0 x1 x2 x3 x4 x5 x6 :=
  (s4_v69 (W10 m ρ c)).trans ((truncf_id _ _).trans (W10_v68 m ρ c))
theorem W11_v70 : W11 m ρ c (Proc.devRef .tc main_v70) = x7 :=
  (s4_v70 (W10 m ρ c)).trans ((truncf_id _ _).trans (W10_launch m ρ c main_arg7))
theorem W11_v71 : W11 m ρ c (Proc.devRef .tc main_v71)
    = (shapeCast S1x32 (x8 : FVec Ideal S32 .f32) shapeCasts_S32_S1x32 : FVec Ideal S1x32 .f32) := by
  refine (s4_v71 (W10 m ρ c)).trans ?_
  rw [W10_launch m ρ c main_arg8]

theorem W12_v72 : W12 m ρ c (Proc.devRef .tc main_v72) = val_main_v73 (F := Ideal) x0 x1 x2 x3 x4 x5 x6 x7 x8 := by
  rw [v73_eq _ _ _ _ _ _ _ _ _ shapeCasts_S32_S1x32]
  refine ((W12_arr m ρ c 3).trans (Region4.arr (V11 m ρ) c)).trans ?_
  show denseRelu (W11 m ρ c (Proc.devRef .tc main_v69)) (W11 m ρ c (Proc.devRef .tc main_v70)) (W11 m ρ c (Proc.devRef .tc main_v71)) = _
  rw [W11_v69 m ρ c, W11_v70 m ρ c, W11_v71 m ρ c]

theorem W13_v73 : W13 m ρ c (Proc.devRef .tc main_v73) = val_main_v73 (F := Ideal) x0 x1 x2 x3 x4 x5 x6 x7 x8 :=
  (s5_v73 (W12 m ρ c)).trans ((truncf_id _ _).trans (W12_v72 m ρ c))
theorem W13_v74 : W13 m ρ c (Proc.devRef .tc main_v74) = x9 :=
  (s5_v74 (W12 m ρ c)).trans ((truncf_id _ _).trans (W12_launch m ρ c main_arg9))
theorem W13_v75 : W13 m ρ c (Proc.devRef .tc main_v75)
    = (shapeCast S1x3 (x10 : FVec Ideal S3 .f32) shapeCasts_S3_S1x3 : FVec Ideal S1x3 .f32) := by
  refine (s5_v75 (W12 m ρ c)).trans ?_
  rw [W12_launch m ρ c main_arg10]

/-- At the last boundary the result buffer holds the reference's result of the arguments. -/
theorem result_eq : W14 m ρ c (Proc.devRef .tc main_v76) = val_main_v77 (F := Ideal) x0 x1 x2 x3 x4 x5 x6 x7 x8 x9 x10 := by
  rw [v77_eq _ _ _ _ _ _ _ _ _ _ _ shapeCasts_S3_S1x3]
  refine ((W14_arr m ρ c 3).trans (Region5.arr (V13 m ρ) c)).trans ?_
  show dense (W13 m ρ c (Proc.devRef .tc main_v73)) (W13 m ρ c (Proc.devRef .tc main_v74)) (W13 m ρ c (Proc.devRef .tc main_v75)) = _
  rw [W13_v73 m ρ c, W13_v74 m ρ c, W13_v75 m ρ c]

end Cert.KernelIdeal.Chain

end
-- ==== Proof.lean ====
/-
  The kernel and its reference are one function of their arguments over the extended reals.

  The program is a two-layer graph network with a two-layer classifier on top. Both programs first build, from the edge
  list and the edge values, the edge lists with self-loops and the symmetric edge weights, with the same operations in
  the same order. Each of the two graph layers is a product of the node features with a weight matrix, one message pass
  along the edges (the gathered rows scaled by the edge weights and added into the target rows), a bias row and a cap
  below by zero; the classifier is a product with bias capped below by zero and a last product with bias. The reference
  computes the products, the bias additions and the caps with whole-array host operations. The kernel program computes
  them in six regions of 25 grid points each, every point handling 2000 rows: its products run on operands first
  changed to a narrower float format, which is the identity at the extended reals, and each point's block of a product is
  the sum over the contracted axis of that block's rows, so the blocks together are the whole product; the bias regions
  add the bias row to each block's rows. The message passes are host operations in both programs, word for word the same.
  So layer by layer the kernel program's buffers hold the reference's stages of the same arguments, and the results agree
  entry by entry. No law beyond reading a product as a sum is used, so the precondition that the inputs are finite is never
  opened.

  The three frames: the two kernel programs' are the generated frame certificates; the reference's is its generated run
  with the result dropped. The idealization rewrote nothing, so its conjunct is `True`.
-/
import proofs.«165420_j63488206570136_1_alg».proof.Defs
import proofs.«165420_j63488206570136_1_alg».proof.Proof.Gen.Kernel
import proofs.«165420_j63488206570136_1_alg».proof.Proof.Gen.Kernel.Frame
import proofs.«165420_j63488206570136_1_alg».proof.Proof.Gen.KernelIdeal
import proofs.«165420_j63488206570136_1_alg».proof.Proof.Gen.KernelIdeal.Frame
import proofs.«165420_j63488206570136_1_alg».proof.Proof.Gen.ReferenceIdeal
import proofs.«165420_j63488206570136_1_alg».proof.Proof.Gen.ReferenceIdeal.Run
import proofs.«165420_j63488206570136_1_alg».proof.Proof.Gen.ReferenceIdeal.Read
import proofs.«165420_j63488206570136_1_alg».proof.Proof.Gen.Pre_finite_inputs
import proofs.«165420_j63488206570136_1_alg».proof.Proof.KernelRun
import proofs.«165420_j63488206570136_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the arguments, the kernel program ends with its result buffer at the last boundary's
    contents, which are the reference's result of the kernel's arguments; the reference ends with its result of its own
    arguments, which are the same arrays. -/
theorem algebraic : Cert.algebraic_KernelIdeal_ReferenceIdeal := by
  intro m ρ m' ρ' _ hagree
  refine ⟨fun c => Cert.KernelIdeal.Gen.W14 m ρ c (Proc.devRef .tc Cert.KernelIdeal.main_v76),
    Cert.KernelIdeal.Gen.run_named m ρ, ?_⟩
  refine (θ_run Cert.ReferenceIdeal.defs _ _).mono (fun _ h c => ⟨(h c).1.trans ?_, (h c).2⟩)
    (Cert.ReferenceIdeal.Value.run (F := Ideal) m' ρ')
  have e := Cert.KernelIdeal.Chain.result_eq m ρ c
  obtain ⟨h0, h1, h2, h3, h4, h5, h6, h7, h8, h9, h10⟩ := hagree c
  rw [Cert.ReferenceIdeal.Read.val_main_v77_eq, h0, h1, h2, h3, h4, h5, h6, h7, h8, h9, h10]
  exact e.symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
